-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v32)) (v3 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_v38) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_v54) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x3 : Shape := ⟨3, ![64, 512, 3]⟩
abbrev S64x512x512 : Shape := ⟨3, ![64, 512, 512]⟩
abbrev S64x1 : Shape := ⟨2, ![64, 1]⟩
abbrev S64x512 : Shape := ⟨2, ![64, 512]⟩
abbrev S_ : Shape := ⟨0, ![]⟩

class Facts : Prop where
  bcast_S_S64x512x3 : S_.BroadcastsInDim S64x512x3 (![] : Fin 0 → Fin S64x512x3.rank)
  reducesTo_S64x512x3_S_d0_1_2 : S64x512x3.ReducesTo [0, 1, 2] S_
  h_S_ : 0 < S_.numel
  bcast_S_S64x512x512 : S_.BroadcastsInDim S64x512x512 (![] : Fin 0 → Fin S64x512x512.rank)
  reducesTo_S64x512x512_S_d0_1_2 : S64x512x512.ReducesTo [0, 1, 2] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_arg4 : FVec F S64x512x512 .f32) (main_v13 : IVec S_ 1) (main_v16 : IVec S64x512x3 1) : IVec S_ 1 :=
  let main_c_5 : IVec S_ 1 := constantI S_ 1 1#1
  let main_v17 : IVec S_ 1 := (fun x v => Host.reduce IntOp.andi x v reducesTo_S64x512x3_S_d0_1_2 h_S_) main_v16 main_c_5
  let main_v18 : IVec S_ 1 := andi main_v13 main_v17
  let main_v19 : FVec F S64x512x512 .f32 := Host.absf main_arg4
  let main_cst_6 : FVec F S_ .f32 := constant S_ .f32 0x7F800000#32
  let main_v20 : FVec F S64x512x512 .f32 := broadcastInDim S64x512x512 ![] bcast_S_S64x512x512 main_cst_6
  let main_v21 : IVec S64x512x512 1 := cmpf .olt main_v19 main_v20
  let main_c_7 : IVec S_ 1 := constantI S_ 1 1#1
  let main_v22 : IVec S_ 1 := (fun x v => Host.reduce IntOp.andi x v reducesTo_S64x512x512_S_d0_1_2 h_S_) main_v21 main_c_7
  let main_v23 : IVec S_ 1 := andi main_v18 main_v22
  main_v23

def fn {F : FTy → Type} [FloatOps F] (main_arg0 : FVec F S64x512x3 .f32) (main_arg1 : FVec F S64x512x512 .f32) (main_arg2 : FVec F S64x1 .f32) (main_arg3 : FVec F S64x512x3 .f32) (main_arg4 : FVec F S64x512x512 .f32) (main_arg5 : IVec S64x512 32) : IVec S_ 1 :=
  let main_v0 : FVec F S64x512x3 .f32 := Host.absf main_arg0
  let main_cst : FVec F S_ .f32 := constant S_ .f32 0x7F800000#32
  let main_v1 : FVec F S64x512x3 .f32 := broadcastInDim S64x512x3 ![] bcast_S_S64x512x3 main_cst
  let main_v2 : IVec S64x512x3 1 := cmpf .olt main_v0 main_v1
  let main_c : IVec S_ 1 := constantI S_ 1 1#1
  let main_v3 : IVec S_ 1 := (fun x v => Host.reduce IntOp.andi x v reducesTo_S64x512x3_S_d0_1_2 h_S_) main_v2 main_c
  let main_v4 : FVec F S64x512x512 .f32 := Host.absf main_arg1
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  let main_v9 : FVec F S64x1 .f32 := Host.absf main_arg2
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  let main_v14 : FVec F S64x512x3 .f32 := Host.absf main_arg3
  let main_cst_4 : FVec F S_ .f32 := constant S_ .f32 0x7F800000#32
  let main_v15 : FVec F S64x512x3 .f32 := broadcastInDim S64x512x3 ![] bcast_S_S64x512x3 main_cst_4
  let main_v16 : IVec S64x512x3 1 := cmpf .olt main_v14 main_v15
  fn_part1 (F := F) main_arg4 main_v13 main_v16
-- ==== Kernel.lean ====
abbrev S64x512x3 : Shape := ⟨3, ![64, 512, 3]⟩
abbrev S64x512x512 : Shape := ⟨3, ![64, 512, 512]⟩
abbrev S64x1 : Shape := ⟨2, ![64, 1]⟩
abbrev S64x512 : Shape := ⟨2, ![64, 512]⟩
abbrev S_ : Shape := ⟨0, ![]⟩
abbrev S64 : Shape := ⟨1, ![64]⟩
abbrev S64x512x1 : Shape := ⟨3, ![64, 512, 1]⟩
abbrev S64x1x512 : Shape := ⟨3, ![64, 1, 512]⟩
abbrev S64x1x128 : Shape := ⟨3, ![64, 1, 128]⟩
abbrev S4x512x3 : Shape := ⟨3, ![4, 512, 3]⟩
abbrev S4x512x1 : Shape := ⟨3, ![4, 512, 1]⟩
abbrev S4x1x512 : Shape := ⟨3, ![4, 1, 512]⟩
abbrev S4x512x512 : Shape := ⟨3, ![4, 512, 512]⟩
abbrev S4x1x128 : Shape := ⟨3, ![4, 1, 128]⟩
abbrev S4x512 : Shape := ⟨2, ![4, 512]⟩
abbrev S4 : Shape := ⟨1, ![4]⟩
abbrev S4x126 : Shape := ⟨2, ![4, 126]⟩
abbrev S4x1 : Shape := ⟨2, ![4, 1]⟩
abbrev S4x128 : Shape := ⟨2, ![4, 128]⟩
abbrev S64x1x1 : Shape := ⟨3, ![64, 1, 1]⟩

abbrev nBuf : Space → Nat
  | .hbm => 69
  | .vmem => 14
  | .smem => 0
  | _ => 0

abbrev bufTy : (tb : Table) → Fin (tcTables nBuf tb) → BufTy
  | .hbm, ⟨0, _⟩ => ⟨S64x512x3, .f32⟩
  | .hbm, ⟨1, _⟩ => ⟨S64x512x512, .f32⟩
  | .hbm, ⟨2, _⟩ => ⟨S64x1, .f32⟩
  | .hbm, ⟨3, _⟩ => ⟨S64x512x3, .f32⟩
  | .hbm, ⟨4, _⟩ => ⟨S64x512x512, .f32⟩
  | .hbm, ⟨5, _⟩ => ⟨S64x512, .i32⟩
  | .hbm, ⟨6, _⟩ => ⟨S64x512, .f32⟩
  | .hbm, ⟨7, _⟩ => ⟨S_, .f32⟩
  | .hbm, ⟨8, _⟩ => ⟨S64, .f32⟩
  | .hbm, ⟨9, _⟩ => ⟨S64x512x1, .f32⟩
  | .hbm, ⟨10, _⟩ => ⟨S64x1x512, .f32⟩
  | .hbm, ⟨11, _⟩ => ⟨S64x1x128, .f32⟩
  | .hbm, ⟨12, _⟩ => ⟨S64x1x1, .f32⟩
  | .hbm, ⟨13, _⟩ => ⟨S64, .f32⟩
  | .hbm, ⟨14, _⟩ => ⟨S64x1x1, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .i1⟩
  | .hbm, ⟨31, _⟩ => ⟨S64, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S64, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .i1⟩
  | .hbm, ⟨47, _⟩ => ⟨S64, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .local _ .vmem, ⟨0, _⟩ => ⟨S4x512x3, .f32⟩
  | .local _ .vmem, ⟨1, _⟩ => ⟨S4x512x3, .f32⟩
  | .local _ .vmem, ⟨2, _⟩ => ⟨S4x512x3, .f32⟩
  | .local _ .vmem, ⟨3, _⟩ => ⟨S4x512x3, .f32⟩
  | .local _ .vmem, ⟨4, _⟩ => ⟨S4x512x1, .f32⟩
  | .local _ .vmem, ⟨5, _⟩ => ⟨S4x512x1, .f32⟩
  | .local _ .vmem, ⟨6, _⟩ => ⟨S4x1x512, .f32⟩
  | .local _ .vmem, ⟨7, _⟩ => ⟨S4x1x512, .f32⟩
  | .local _ .vmem, ⟨8, _⟩ => ⟨S4x512x512, .f32⟩
  | .local _ .vmem, ⟨9, _⟩ => ⟨S4x512x512, .f32⟩
  | .local _ .vmem, ⟨10, _⟩ => ⟨S4x512x512, .f32⟩
  | .local _ .vmem, ⟨11, _⟩ => ⟨S4x512x512, .f32⟩
  | .local _ .vmem, ⟨12, _⟩ => ⟨S4x1x128, .f32⟩
  | .local _ .vmem, ⟨13, _⟩ => ⟨S4x1x128, .f32⟩
  | _, _ => ⟨S64x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_call0_v0 : Ref sig .tc := ⟨.hbm, 43, rfl⟩
abbrev main_v27 : Ref sig .tc := ⟨.hbm, 44, rfl⟩
abbrev main_cst_9 : Ref sig .tc := ⟨.hbm, 45, rfl⟩
abbrev main_v28 : Ref sig .tc := ⟨.hbm, 46, rfl⟩
abbrev main_v29 : Ref sig .tc := ⟨.hbm, 47, rfl⟩
abbrev main_cst_10 : Ref sig .tc := ⟨.hbm, 48, rfl⟩
abbrev main_v30 : Ref sig .tc := ⟨.hbm, 49, rfl⟩
abbrev main_v31 : Ref sig .tc := ⟨.hbm, 50, rfl⟩
abbrev main_cst_11 : Ref sig .tc := ⟨.hbm, 51, rfl⟩
abbrev main_call1_v0 : Ref sig .tc := ⟨.hbm, 52, rfl⟩
abbrev main_v32 : Ref sig .tc := ⟨.hbm, 53, rfl⟩
abbrev main_v33 : Ref sig .tc := ⟨.hbm, 54, rfl⟩
abbrev main_v35 : Ref sig .tc := ⟨.hbm, 55, rfl⟩
abbrev main_v36 : Ref sig .tc := ⟨.hbm, 56, rfl⟩
abbrev main_cst_12 : Ref sig .tc := ⟨.hbm, 57, rfl⟩
abbrev main_v37 : Ref sig .tc := ⟨.hbm, 58, rfl⟩
abbrev main_cst_13 : Ref sig .tc := ⟨.hbm, 59, rfl⟩
abbrev main_v38 : Ref sig .tc := ⟨.hbm, 60, rfl⟩
abbrev main_cst_14 : Ref sig .tc := ⟨.hbm, 61, rfl⟩
abbrev main_v39 : Ref sig .tc := ⟨.hbm, 62, rfl⟩
abbrev main_cst_15 : Ref sig .tc := ⟨.hbm, 63, rfl⟩
abbrev main_v40 : Ref sig .tc := ⟨.hbm, 64, rfl⟩
abbrev main_v41 : Ref sig .tc := ⟨.hbm, 65, rfl⟩
abbrev main_cst_16 : Ref sig .tc := ⟨.hbm, 66, rfl⟩
abbrev main_v42 : Ref sig .tc := ⟨.hbm, 67, rfl⟩
abbrev main_v43 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S64x512_S64_d1 : S64x512.ReducesTo [1] S64
  h_S_ : 0 < S_.numel
  shapeCasts_S64x512_S64x512x1 : S64x512.ShapeCasts S64x512x1
  shapeCasts_S64x512_S64x1x512 : S64x512.ShapeCasts S64x1x512
  inb_S4x512x3_S4x512x3_0_0_0 : ∀ a, (![0, 0, 0] : Fin 3 → Nat) a + S4x512x3.size a ≤ S4x512x3.size a
  h_S4x512x3 : 0 < S4x512x3.numel
  inb_S4x512x1_S4x512x1_0_0_0 : ∀ a, (![0, 0, 0] : Fin 3 → Nat) a + S4x512x1.size a ≤ S4x512x1.size a
  h_S4x512x1 : 0 < S4x512x1.numel
  shapeCasts_S4x512x1_S4x512x1 : S4x512x1.ShapeCasts S4x512x1
  broadcasts_S4x512x1_S4x512x3 : S4x512x1.Broadcasts S4x512x3
  reduces_S4x512x3_S4x512 : S4x512x3.Reduces [2] S4x512
  reduces_S4x512_S4 : S4x512.Reduces [1] S4
  inb_S4x512x512_S4x512x512_0_0_0 : ∀ a, (![0, 0, 0] : Fin 3 → Nat) a + S4x512x512.size a ≤ S4x512x512.size a
  h_S4x512x512 : 0 < S4x512x512.numel
  inb_S4x1x512_S4x1x512_0_0_0 : ∀ a, (![0, 0, 0] : Fin 3 → Nat) a + S4x1x512.size a ≤ S4x1x512.size a
  h_S4x1x512 : 0 < S4x1x512.numel
  shapeCasts_S4x1x512_S4x1x512 : S4x1x512.ShapeCasts S4x1x512
  broadcasts_S4x512x1_S4x512x512 : S4x512x1.Broadcasts S4x512x512
  broadcasts_S4x1x512_S4x512x512 : S4x1x512.Broadcasts S4x512x512
  reduces_S4x512x512_S4x512 : S4x512x512.Reduces [2] S4x512
  shapeCasts_S4_S4x1 : S4.ShapeCasts S4x1
  concatenates_S4x1_S4x1_S4x126_S4x128_d1 : Shape.Concatenates [S4x1, S4x1, S4x126] S4x128 1
  shapeCasts_S4x128_S4x1x128 : S4x128.ShapeCasts S4x1x128
  inb_S4x1x128_S4x1x128_0_0_0 : ∀ a, (![0, 0, 0] : Fin 3 → Nat) a + S4x1x128.size a ≤ S4x1x128.size a
  h_S4x1x128 : 0 < S4x1x128.numel
  slices_S64x1x128_S64x1x1_0_0_0 : S64x1x128.Slices ![0, 0, 0] S64x1x1
  shapeCasts_S64x1x1_S64 : S64x1x1.ShapeCasts S64
  slices_S64x1x128_S64x1x1_0_0_1 : S64x1x128.Slices ![0, 0, 1] S64x1x1
  bcast_S_S64 : S_.BroadcastsInDim S64 (![] : Fin 0 → Fin S64.rank)
  reducesTo_S64_S_d0 : S64.ReducesTo [0] S_
  shapeCasts_S64x1_S64 : S64x1.ShapeCasts S64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x3.size a ≤ S64x512x3.size a
  hwx0_0 : ∀ i : grid0.Coords, EltTy.bits .f32 = 32 ∨ (Rect.block (s := S64x512x3) S4x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x3.size a ≤ S64x512x3.size a
  hwx0_1 : ∀ i : grid0.Coords, EltTy.bits .f32 = 32 ∨ (Rect.block (s := S64x512x3) S4x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x1.size a ≤ S64x512x1.size a
  hwx0_2 : ∀ i : grid0.Coords, EltTy.bits .f32 = 32 ∨ (Rect.block (s := S64x512x1) S4x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x512.size a ≤ S64x1x512.size a
  hwx0_3 : ∀ i : grid0.Coords, EltTy.bits .f32 = 32 ∨ (Rect.block (s := S64x1x512) S4x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x512x512.size a ≤ S64x512x512.size a
  hwx0_4 : ∀ i : grid0.Coords, EltTy.bits .f32 = 32 ∨ (Rect.block (s := S64x512x512) S4x512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x512x512.size a ≤ S64x512x512.size a
  hwx0_5 : ∀ i : grid0.Coords, EltTy.bits .f32 = 32 ∨ (Rect.block (s := S64x512x512) S4x512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x1x128.size a ≤ S64x1x128.size a
  hwx0_6 : ∀ i : grid0.Coords, EltTy.bits .f32 = 32 ∨ (Rect.block (s := S64x1x128) S4x1x128.size (cc0_transform_6 i) (hinb0_6 i)).WholeWords (EltTy.packing .f32)

variable [Facts₀]

abbrev win0_0 : Pipeline.Window sig grid0 :=
  Pipeline.Window.ofSpec (Memref.whole main_arg0) S4x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S4x512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S4x512x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S4x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x512x3 : Shape := ⟨3, ![64, 512, 3]⟩
abbrev S64x512x512 : Shape := ⟨3, ![64, 512, 512]⟩
abbrev S64x1 : Shape := ⟨2, ![64, 1]⟩
abbrev S64x512 : Shape := ⟨2, ![64, 512]⟩
abbrev S_ : Shape := ⟨0, ![]⟩
abbrev S64 : Shape := ⟨1, ![64]⟩
abbrev S64x512x1 : Shape := ⟨3, ![64, 512, 1]⟩
abbrev S64x1x512 : Shape := ⟨3, ![64, 1, 512]⟩

abbrev nBuf : Space → Nat
  | .hbm => 95
  | .vmem => 0
  | .smem => 0
  | _ => 0

abbrev bufTy : (tb : Table) → Fin (tcTables nBuf tb) → BufTy
  | .hbm, ⟨0, _⟩ => ⟨S64x512x3, .f32⟩
  | .hbm, ⟨1, _⟩ => ⟨S64x512x512, .f32⟩
  | .hbm, ⟨2, _⟩ => ⟨S64x1, .f32⟩
  | .hbm, ⟨3, _⟩ => ⟨S64x512x3, .f32⟩
  | .hbm, ⟨4, _⟩ => ⟨S64x512x512, .f32⟩
  | .hbm, ⟨5, _⟩ => ⟨S64x512, .i32⟩
  | .hbm, ⟨6, _⟩ => ⟨S64x512, .f32⟩
  | .hbm, ⟨7, _⟩ => ⟨S_, .f32⟩
  | .hbm, ⟨8, _⟩ => ⟨S64, .f32⟩
  | .hbm, ⟨9, _⟩ => ⟨S64x512x3, .f32⟩
  | .hbm, ⟨10, _⟩ => ⟨S64x512x3, .f32⟩
  | .hbm, ⟨11, _⟩ => ⟨S64x512x1, .f32⟩
  | .hbm, ⟨12, _⟩ => ⟨S64x512x3, .f32⟩
  | .hbm, ⟨13, _⟩ => ⟨S64x512x3, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64x512x1, .f32⟩
  | .hbm, ⟨24, _⟩ => ⟨S64x1x512, .f32⟩
  | .hbm, ⟨25, _⟩ => ⟨S64x512x512, .f32⟩
  | .hbm, ⟨26, _⟩ => ⟨S64x512x512, .f32⟩
  | .hbm, ⟨27, _⟩ => ⟨S64x512x512, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S64x512x512, .f32⟩
  | .hbm, ⟨32, _⟩ => ⟨S64x512x512, .f32⟩
  | .hbm, ⟨33, _⟩ => ⟨S_, .f32⟩
  | .hbm, ⟨34, _⟩ => ⟨S64x512x512, .f32⟩
  | .hbm, ⟨35, _⟩ => ⟨S64x512x512, .f32⟩
  | .hbm, ⟨36, _⟩ => ⟨S64x512x512, .f32⟩
  | .hbm, ⟨37, _⟩ => ⟨S64x512x512, .f32⟩
  | .hbm, ⟨38, _⟩ => ⟨S_, .f32⟩
  | .hbm, ⟨39, _⟩ => ⟨S64x512x512, .f32⟩
  | .hbm, ⟨40, _⟩ => ⟨S64x512x512, .f32⟩
  | .hbm, ⟨41, _⟩ => ⟨S64x512x512, .f32⟩
  | .hbm, ⟨42, _⟩ => ⟨S64x512x512, .f32⟩
  | .hbm, ⟨43, _⟩ => ⟨S64x512x512, .f32⟩
  | .hbm, ⟨44, _⟩ => ⟨S64x512x512, .f32⟩
  | .hbm, ⟨45, _⟩ => ⟨S64x512x512, .f32⟩
  | .hbm, ⟨46, _⟩ => ⟨S64x512x512, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S_, .f32⟩
  | .hbm, ⟨55, _⟩ => ⟨S64, .f32⟩
  | .hbm, ⟨56, _⟩ => ⟨S64, .i1⟩
  | .hbm, ⟨57, _⟩ => ⟨S64, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .i1⟩
  | .hbm, ⟨64, _⟩ => ⟨S64, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .i1⟩
  | .hbm, ⟨73, _⟩ => ⟨S64, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S64, .f32⟩
  | .hbm, ⟨81, _⟩ => ⟨S64, .f32⟩
  | .hbm, ⟨82, _⟩ => ⟨S64, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S64x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_cst_10 : Ref sig .tc := ⟨.hbm, 60, rfl⟩
abbrev main_v38 : Ref sig .tc := ⟨.hbm, 61, rfl⟩
abbrev main_cst_11 : Ref sig .tc := ⟨.hbm, 62, rfl⟩
abbrev main_v39 : Ref sig .tc := ⟨.hbm, 63, rfl⟩
abbrev main_v40 : Ref sig .tc := ⟨.hbm, 64, rfl⟩
abbrev main_cst_12 : Ref sig .tc := ⟨.hbm, 65, rfl⟩
abbrev main_v41 : Ref sig .tc := ⟨.hbm, 66, rfl⟩
abbrev main_v42 : Ref sig .tc := ⟨.hbm, 67, rfl⟩
abbrev main_cst_13 : Ref sig .tc := ⟨.hbm, 68, rfl⟩
abbrev main_call1_v0 : Ref sig .tc := ⟨.hbm, 69, rfl⟩
abbrev main_v43 : Ref sig .tc := ⟨.hbm, 70, rfl⟩
abbrev main_cst_14 : Ref sig .tc := ⟨.hbm, 71, rfl⟩
abbrev main_v44 : Ref sig .tc := ⟨.hbm, 72, rfl⟩
abbrev main_v45 : Ref sig .tc := ⟨.hbm, 73, rfl⟩
abbrev main_cst_15 : Ref sig .tc := ⟨.hbm, 74, rfl⟩
abbrev main_v46 : Ref sig .tc := ⟨.hbm, 75, rfl⟩
abbrev main_v47 : Ref sig .tc := ⟨.hbm, 76, rfl⟩
abbrev main_cst_16 : Ref sig .tc := ⟨.hbm, 77, rfl⟩
abbrev main_call2_v0 : Ref sig .tc := ⟨.hbm, 78, rfl⟩
abbrev main_v48 : Ref sig .tc := ⟨.hbm, 79, rfl⟩
abbrev main_v49 : Ref sig .tc := ⟨.hbm, 80, rfl⟩
abbrev main_v51 : Ref sig .tc := ⟨.hbm, 81, rfl⟩
abbrev main_v52 : Ref sig .tc := ⟨.hbm, 82, rfl⟩
abbrev main_cst_17 : Ref sig .tc := ⟨.hbm, 83, rfl⟩
abbrev main_v53 : Ref sig .tc := ⟨.hbm, 84, rfl⟩
abbrev main_cst_18 : Ref sig .tc := ⟨.hbm, 85, rfl⟩
abbrev main_v54 : Ref sig .tc := ⟨.hbm, 86, rfl⟩
abbrev main_cst_19 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_cst_21 : Ref sig .tc := ⟨.hbm, 92, rfl⟩
abbrev main_v58 : Ref sig .tc := ⟨.hbm, 93, rfl⟩
abbrev main_v59 : Ref sig .tc := ⟨.hbm, 94, rfl⟩

abbrev nD : Nat := 1
abbrev τ : Topo := Topo.v7x

variable {F : FTy → Type} [FloatOps F]

class Facts₀ : Prop where
  reducesTo_S64x512_S64_d1 : S64x512.ReducesTo [1] S64
  h_S_ : 0 < S_.numel
  bcast_S64x512_S64x512x1_0_1 : S64x512.BroadcastsInDim S64x512x1 (![0, 1] : Fin 2 → Fin S64x512x1.rank)
  bcast_S64x512x1_S64x512x3_0_1_2 : S64x512x1.BroadcastsInDim S64x512x3 (![0, 1, 2] : Fin 3 → Fin S64x512x3.rank)
  reducesTo_S64x512x3_S64_d1_2 : S64x512x3.ReducesTo [1, 2] S64
  bcast_S_S64 : S_.BroadcastsInDim S64 (![] : Fin 0 → Fin S64.rank)
  bcast_S64x512_S64x1x512_0_2 : S64x512.BroadcastsInDim S64x1x512 (![0, 2] : Fin 2 → Fin S64x1x512.rank)
  bcast_S64x512x1_S64x512x512_0_1_2 : S64x512x1.BroadcastsInDim S64x512x512 (![0, 1, 2] : Fin 3 → Fin S64x512x512.rank)
  bcast_S64x1x512_S64x512x512_0_1_2 : S64x1x512.BroadcastsInDim S64x512x512 (![0, 1, 2] : Fin 3 → Fin S64x512x512.rank)
  bcast_S_S64x512x512 : S_.BroadcastsInDim S64x512x512 (![] : Fin 0 → Fin S64x512x512.rank)
  reducesTo_S64x512x512_S64_d1_2 : S64x512x512.ReducesTo [1, 2] S64
  reducesTo_S64_S_d0 : S64.ReducesTo [0] S_
  shapeCasts_S64x1_S64 : S64x1.ShapeCasts S64

variable [Facts₀]

class Facts : Prop extends Facts₀ where

variable [Facts]
-- ==== Proof.Spec.lean ====
/-
  What the two programs compute per sample, as plain sums over coordinates of the argument arrays read as extended reals.
  For a sample `b` with node mask `mk b ·` (1 where the node is present, 0 elsewhere):
    • `seOf`:   Σ_n Σ_d (pc[b,n,d] − pts[b,n,d])² · mk[b,n]                                — the masked squared coordinate error;
    • `edgeOf`: Σ_i Σ_j −(adj·log p + (1 − adj)·log1p(−p))[b,i,j] · (mk[b,i] · mk[b,j]),  p = min(hi, max(lo, am))
                                                                                          — the masked binary cross-entropy.
  The two clipping bounds and the constant one are kept as their float words: both programs carry the same words.
-/
import Idealize.ShloMosaic.PureOps.Ideal.Laws
import Idealize.ShloMosaic.Lib.ValueIdx

noncomputable section

namespace Cert.LossSpec

open Idealize.ShloMosaic Idealize.ShloMosaic.ValueIdx

/-- Coordinates `[64, 512, 3]`, pair scores `[64, 512, 512]` and node masks `[64, 512]`, as extended reals. -/
abbrev Coords := (⟨3, ![64, 512, 3]⟩ : Shape).Idx → EReal
abbrev Pairs := (⟨3, ![64, 512, 512]⟩ : Shape).Idx → EReal
abbrev Mask := (⟨2, ![64, 512]⟩ : Shape).Idx → EReal

/-- One coordinate's squared error, kept where the node is present. -/
def sqErr (pc pts : Coords) (mk : Mask) (b : Fin 64) (n : Fin 512) (d : Fin 3) : EReal :=
  ((pc (ix3 b n d) - pts (ix3 b n d)) * (pc (ix3 b n d) - pts (ix3 b n d))) * mk (ix2 b n)

/-- The masked squared coordinate error of sample `b`. -/
def seOf (pc pts : Coords) (mk : Mask) (b : Fin 64) : EReal :=
  ∑ n : Fin 512, ∑ d : Fin 3, sqErr pc pts mk b n d

/-- A predicted probability clipped into `[lo, hi]` (the two float words both programs carry). -/
def clipP (x : EReal) : EReal :=
  min (Ideal.ofBits .f32 0x3F7FFFFE#32) (max (Ideal.ofBits .f32 0x33D6BF95#32) x)

/-- The binary cross-entropy of one pair, before masking: `−(a·log p + (1 − a)·log1p(−p))`. -/
def bce (p a : EReal) : EReal :=
  -((a * Ideal.log (clipP p)) + ((Ideal.ofBits .f32 0x3F800000#32 - a) * Ideal.log1p (-(clipP p))))

/-- One pair's cross-entropy, kept where both nodes are present. -/
def edgeTerm (am adj : Pairs) (mk : Mask) (b : Fin 64) (i j : Fin 512) : EReal :=
  bce (am (ix3 b i j)) (adj (ix3 b i j)) * (mk (ix2 b i) * mk (ix2 b j))

/-- The masked cross-entropy of sample `b`. -/
def edgeOf (am adj : Pairs) (mk : Mask) (b : Fin 64) : EReal :=
  ∑ i : Fin 512, ∑ j : Fin 512, edgeTerm am adj mk b i j

/-- The kernel writes the negation as a subtraction from zero: the same extended real. -/
theorem bce_eq_zero_sub (p a : EReal) :
    bce p a = 0 - ((a * Ideal.log (clipP p)) + ((Ideal.ofBits .f32 0x3F800000#32 - a) * Ideal.log1p (0 - clipP p))) := by
  unfold bce; rw [zero_sub, zero_sub]

end Cert.LossSpec

end
-- ==== Proof.LibSum12.lean ====
/-
  Sums over the two trailing axes of a rank-three array `[A, N, D]` into `[A]`, read at `b` as ONE double sum
  `Σ_n Σ_d x(b, n, d)`, in the two spellings programs use:
    • the host's single reduce over axes 1 and 2 (`hostReduceAdd_axes12`: the initial value plus the double sum) — the
      library reads a host sum over ONE axis, or into a result of unit axes; this is the sum over two axes into a result
      with a long axis;
    • a vector sum over the lanes (axis 2) followed by a vector sum over the rows (axis 1) (`reduceAdd_lanes_rows`).
  So the two spellings agree, addition of extended reals being commutative and associative; no finiteness is used.
-/
import Idealize.ShloMosaic.PureOps.Ideal.Laws
import Idealize.ShloMosaic.Lib.ValueIdx

namespace Idealize.ShloMosaic.Sum12

open Idealize.ShloMosaic Idealize.ShloMosaic.ValueIdx

/-- Reducing axes 1 and 2 of a rank-three shape keeps axis 0 alone, whatever the extents. -/
theorem kept12 {A N D : Nat} : (⟨3, ![A, N, D]⟩ : Shape).kept [1, 2] = [0] := rfl

theorem drop_val {A N D : Nat} (h' : (⟨3, ![A, N, D]⟩ : Shape).ReducesTo [1, 2] ⟨1, ![A]⟩)
    (i : (⟨3, ![A, N, D]⟩ : Shape).Idx) : ((h'.drop i) 0 : Nat) = (i 0 : Nat) :=
  Shape.ReducesTo.drop_apply_val_of_eq h' i 0 0 (by rw [kept12]; exact Nat.one_pos) (by simp only [kept12]; rfl)

/-- An index of the rank-three array drops to `b` exactly when its leading coordinate is `b`. -/
theorem drop_eq_iff {A N D : Nat} (h' : (⟨3, ![A, N, D]⟩ : Shape).ReducesTo [1, 2] ⟨1, ![A]⟩)
    (i : (⟨3, ![A, N, D]⟩ : Shape).Idx) (b : Fin A) : h'.drop i = ix1 b ↔ (i 0 : Fin A) = b := by
  constructor
  · intro e
    have e0 : ((h'.drop i) 0 : Nat) = ((ix1 b : (⟨1, ![A]⟩ : Shape).Idx) 0 : Nat) := by rw [e]
    rw [drop_val h' i] at e0
    exact Fin.ext e0
  · intro e
    funext a
    match a with
    | ⟨0, _⟩ =>
      apply Fin.ext
      show ((h'.drop i) 0 : Nat) = (b : Nat)
      rw [drop_val h' i]
      exact congrArg Fin.val e

/-- **The host's add-reduce over axes 1 and 2, at `b`**: the initial value plus the sum over `n` and `d` of the
    operand at `(b, n, d)`. -/
theorem hostReduceAdd_axes12 {A N D : Nat} (h' : (⟨3, ![A, N, D]⟩ : Shape).ReducesTo [1, 2] ⟨1, ![A]⟩)
    (x : (⟨3, ![A, N, D]⟩ : Shape).Idx → EReal) (init : EReal) (b : Fin A) :
    Ideal.hostReduceAdd h' x init (ix1 b) = init + ∑ n : Fin N, ∑ d : Fin D, x (ix3 b n d) := by
  unfold Ideal.hostReduceAdd
  congr 1
  rw [← Finset.sum_product']
  refine Finset.sum_nbij' (fun i => ((i 1 : Fin N), (i 2 : Fin D))) (fun p => ix3 b p.1 p.2) ?_ ?_ ?_ ?_ ?_
  · intro i _; exact Finset.mem_product.2 ⟨Finset.mem_univ _, Finset.mem_univ _⟩
  · intro p _; exact Finset.mem_filter.2 ⟨Finset.mem_univ _, (drop_eq_iff h' _ b).2 rfl⟩
  · intro i hi
    have h0 : (i 0 : Fin A) = b := (drop_eq_iff h' i b).1 (Finset.mem_filter.1 hi).2
    funext a
    match a with
    | ⟨0, _⟩ => exact h0.symm
    | ⟨1, _⟩ => rfl
    | ⟨2, _⟩ => rfl
  · intro p _; rfl
  · intro i hi
    have h0 : (i 0 : Fin A) = b := (drop_eq_iff h' i b).1 (Finset.mem_filter.1 hi).2
    refine congrArg x ?_
    funext a
    match a with
    | ⟨0, _⟩ => exact h0
    | ⟨1, _⟩ => rfl
    | ⟨2, _⟩ => rfl

/-- **A lane sum then a row sum, at `p`**: the sum over `n` and `d` of the operand at `(p, n, d)`. -/
theorem reduceAdd_lanes_rows {A N D : Nat} (v : (⟨3, ![A, N, D]⟩ : Shape).Idx → EReal)
    (h2 : (⟨3, ![A, N, D]⟩ : Shape).Reduces [2] ⟨2, ![A, N]⟩) (h1 : (⟨2, ![A, N]⟩ : Shape).Reduces [1] ⟨1, ![A]⟩) (p : Fin A) :
    Ideal.reduceAdd h1 (Ideal.reduceAdd h2 v) (ix1 p) = ∑ n : Fin N, ∑ d : Fin D, v (ix3 p n d) := by
  refine (Ideal.reduceAdd_single h1 _ (ix1 p)).trans ?_
  refine Finset.sum_congr rfl fun n _ => ?_
  refine (Ideal.reduceAdd_single h2 v _).trans ?_
  refine Finset.sum_congr rfl fun d _ => congrArg v ?_
  funext a
  match a with
  | ⟨0, _⟩ => rfl
  | ⟨1, _⟩ => rfl
  | ⟨2, _⟩ => rfl

end Idealize.ShloMosaic.Sum12
-- ==== Proof.KernelBlock.lean ====
/-
  The kernel body at one grid point, read at an index. The point's block holds four samples. For sample `p` of the block
  the body forms the masked squared error (a sum over the three coordinates, then over the 512 nodes) and the masked binary
  cross-entropy (a sum over the second node axis, then over the first), and stores them in lanes 0 and 1 of the sample's
  128-lane row, the other lanes zero. The node mask enters as a column `[4, 512, 1]` and as a row `[4, 1, 512]`, spread
  along the missing axis. The negations in the cross-entropy are written as subtractions from zero, the same extended real.
-/
import proofs.«149988_j58007828300462_1_alg».proof.Proof.Gen.KernelIdeal.Skeleton
import proofs.«149988_j58007828300462_1_alg».proof.Proof.Spec
import proofs.«149988_j58007828300462_1_alg».proof.Proof.LibSum12
import Idealize.ShloMosaic.Lib.Pipeline.Value
import Idealize.ShloMosaic.Lib.ValueIdx
import Idealize.ShloMosaic.PureOps.Ideal.Laws

noncomputable section

namespace Cert.KernelIdeal.BlockValue

open Idealize.ShloMosaic Idealize.ShloMosaic.ValueIdx Cert.KernelIdeal Cert.KernelIdeal.Gen

/-- The mask column spread along the coordinate axis, at `(p, n, d)`: the column at `(p, n, 0)`. -/
theorem col_to_coords (x2 : Vec Ideal S4x512x1 .f32) (p : Fin 4) (n : Fin 512) (d : Fin 3) :
    broadcastTo S4x512x3 (shapeCast S4x512x1 x2 shapeCasts_S4x512x1_S4x512x1) broadcasts_S4x512x1_S4x512x3 (ix3 p n d) = x2 (ix3 p n (0 : Fin 1)) :=
  (congrArg (fun v => broadcastTo S4x512x3 v broadcasts_S4x512x1_S4x512x3 (ix3 p n d)) (shapeCast_self x2 _)).trans
    (broadcastTo_apply x2 _ (ix3 p n d) (ix3 p n (0 : Fin 1)) (fun a => by
      match a with
      | ⟨0, _⟩ => rfl
      | ⟨1, _⟩ => rfl
      | ⟨2, _⟩ => rfl))

/-- The mask column spread along the second node axis, at `(p, i, j)`: the column at `(p, i, 0)`. -/
theorem col_to_pairs (x2 : Vec Ideal S4x512x1 .f32) (p : Fin 4) (i j : Fin 512) :
    broadcastTo S4x512x512 (shapeCast S4x512x1 x2 shapeCasts_S4x512x1_S4x512x1) broadcasts_S4x512x1_S4x512x512 (ix3 p i j) = x2 (ix3 p i (0 : Fin 1)) :=
  (congrArg (fun v => broadcastTo S4x512x512 v broadcasts_S4x512x1_S4x512x512 (ix3 p i j)) (shapeCast_self x2 _)).trans
    (broadcastTo_apply x2 _ (ix3 p i j) (ix3 p i (0 : Fin 1)) (fun a => by
      match a with
      | ⟨0, _⟩ => rfl
      | ⟨1, _⟩ => rfl
      | ⟨2, _⟩ => rfl))

/-- The mask row spread along the first node axis, at `(p, i, j)`: the row at `(p, 0, j)`. -/
theorem row_to_pairs (x3 : Vec Ideal S4x1x512 .f32) (p : Fin 4) (i j : Fin 512) :
    broadcastTo S4x512x512 (shapeCast S4x1x512 x3 shapeCasts_S4x1x512_S4x1x512) broadcasts_S4x1x512_S4x512x512 (ix3 p i j) = x3 (ix3 p (0 : Fin 1) j) :=
  (congrArg (fun v => broadcastTo S4x512x512 v broadcasts_S4x1x512_S4x512x512 (ix3 p i j)) (shapeCast_self x3 _)).trans
    (broadcastTo_apply x3 _ (ix3 p i j) (ix3 p (0 : Fin 1) j) (fun a => by
      match a with
      | ⟨0, _⟩ => rfl
      | ⟨1, _⟩ => rfl
      | ⟨2, _⟩ => rfl))

/-- The body's first sum at sample `p`: over nodes and coordinates, the squared difference times the mask column. -/
theorem se_apply (x0 x1 : Vec Ideal S4x512x3 .f32) (x2 : Vec Ideal S4x512x1 .f32) (p : Fin 4) :
    k0_pay3 x0 x1 x2 (ix1 p) = ∑ n : Fin 512, ∑ d : Fin 3, ((x0 (ix3 p n d) - x1 (ix3 p n d)) * (x0 (ix3 p n d) - x1 (ix3 p n d))) * x2 (ix3 p n (0 : Fin 1)) := by
  unfold k0_pay3 k0_pay2
  refine (Sum12.reduceAdd_lanes_rows _ reduces_S4x512x3_S4x512 reduces_S4x512_S4 p).trans ?_
  refine Finset.sum_congr rfl fun n _ => Finset.sum_congr rfl fun d _ => ?_
  exact congrArg (fun z => ((x0 (ix3 p n d) - x1 (ix3 p n d)) * (x0 (ix3 p n d) - x1 (ix3 p n d))) * z) (col_to_coords x2 p n d)

/-- The body's masked cross-entropy at `(p, i, j)`: the specification's pair term of the loaded blocks. -/
theorem edge_apply (x2 : Vec Ideal S4x512x1 .f32) (x4 x5 : Vec Ideal S4x512x512 .f32) (x3 : Vec Ideal S4x1x512 .f32) (p : Fin 4) (i j : Fin 512) :
    k0_pay4 x2 x4 x5 x3 (ix3 p i j) = LossSpec.bce (x4 (ix3 p i j)) (x5 (ix3 p i j)) * (x2 (ix3 p i (0 : Fin 1)) * x3 (ix3 p (0 : Fin 1) j)) := by
  unfold k0_pay4 k0_pay2
  simp only [mulf, subf, addf, maximumf, minimumf, log, log1p, broadcast]
  rw [col_to_pairs x2 p i j, row_to_pairs x3 p i j, LossSpec.bce_eq_zero_sub]
  simp only [Ideal.mulf_def, Ideal.subf_def, Ideal.addf_def, Ideal.log_def, Ideal.log1p_def, Ideal.minimumf_def, Ideal.maximumf_def,
    Ideal.ofBits_def, Ideal.ofBits_zero_f32, LossSpec.clipP]

section Lanes

variable {α : Type} (a b : S4x1.Idx → α) (z : S4x126.Idx → α)
  (h : Shape.Concatenates (([⟨S4x1, a⟩, ⟨S4x1, b⟩, ⟨S4x126, z⟩] : List ((s : Shape) × (s.Idx → α))).map (·.1)) S4x128 1)
  (p : Fin 4) (l : Fin 128)

/-- Two one-lane columns and a 126-lane rest laid side by side: lane 0 is the first column. -/
theorem lane0 (hl : l.val = 0) :
    concatenate S4x128 1 [⟨S4x1, a⟩, ⟨S4x1, b⟩, ⟨S4x126, z⟩] h (ix2 p l) = a (ix2 p (0 : Fin 1)) :=
  concatenate_apply_piece (1 : Fin 2) [⟨S4x1, a⟩, ⟨S4x1, b⟩, ⟨S4x126, z⟩] h (ix2 p l) 0 (by show 0 < 3; omega) S4x1 a rfl rfl 0 rfl
    (ix2 p (0 : Fin 1))
    (fun c hc => by
      match c with
      | ⟨0, _⟩ => rfl
      | ⟨1, _⟩ => exact absurd rfl hc)
    (by show 0 + 0 = l.val; omega)

/-- Lane 1 is the second column. -/
theorem lane1 (hl : l.val = 1) :
    concatenate S4x128 1 [⟨S4x1, a⟩, ⟨S4x1, b⟩, ⟨S4x126, z⟩] h (ix2 p l) = b (ix2 p (0 : Fin 1)) :=
  concatenate_apply_piece (1 : Fin 2) [⟨S4x1, a⟩, ⟨S4x1, b⟩, ⟨S4x126, z⟩] h (ix2 p l) 1 (by show 1 < 3; omega) S4x1 b rfl rfl 1 rfl
    (ix2 p (0 : Fin 1))
    (fun c hc => by
      match c with
      | ⟨0, _⟩ => rfl
      | ⟨1, _⟩ => exact absurd rfl hc)
    (by show 1 + 0 = l.val; omega)

/-- Lane `l ≥ 2` is lane `l − 2` of the rest. -/
theorem lane_rest (hl : 2 ≤ l.val) :
    concatenate S4x128 1 [⟨S4x1, a⟩, ⟨S4x1, b⟩, ⟨S4x126, z⟩] h (ix2 p l)
      = z (ix2 p (⟨l.val - 2, by have := l.isLt; omega⟩ : Fin 126)) :=
  concatenate_apply_piece (1 : Fin 2) [⟨S4x1, a⟩, ⟨S4x1, b⟩, ⟨S4x126, z⟩] h (ix2 p l) 2 (by show 2 < 3; omega) S4x126 z rfl rfl 2 rfl
    (ix2 p (⟨l.val - 2, by have := l.isLt; omega⟩ : Fin 126))
    (fun c hc => by
      match c with
      | ⟨0, _⟩ => rfl
      | ⟨1, _⟩ => exact absurd rfl hc)
    (by show 2 + (l.val - 2) = l.val; omega)

end Lanes

/-- A length-4 vector as a `[4, 1]` column, at `(p, 0)`: the vector at `p`. -/
theorem column_apply {α : Type} (v : S4.Idx → α) (p : Fin 4) :
    shapeCast S4x1 v shapeCasts_S4_S4x1 (ix2 p (0 : Fin 1)) = v (ix1 p) := by
  refine shapeCast_apply v _ (ix2 p (0 : Fin 1)) (ix1 p) ?_
  rw [Shape.rowMajor_val_one, Shape.rowMajor_val_two]
  show p.val = p.val * 1 + 0
  omega

/-- The stored row of sample `p`, lane by lane: the first sum in lane 0, the second (the lane sum then the row sum of the
    masked cross-entropy) in lane 1, zero in the other 126 lanes. -/
theorem stored_apply (v9 : FVec Ideal S4 .f32) (v32 : FVec Ideal S4x512x512 .f32) (p : Fin 4) (l : Fin 128) :
    k0_pay1 v9 v32 (ix3 p (0 : Fin 1) l)
      = if l.val = 0 then v9 (ix1 p) else if l.val = 1 then ∑ i : Fin 512, ∑ j : Fin 512, v32 (ix3 p i j) else 0 := by
  unfold k0_pay1
  refine (shapeCast_apply _ _ (ix3 p (0 : Fin 1) l) (ix2 p l) ?_).trans ?_
  · rw [Shape.rowMajor_val_two, Shape.rowMajor_val_three]
    show p.val * 128 + l.val = (p.val * 1 + 0) * 128 + l.val
    omega
  by_cases h0 : l.val = 0
  · rw [if_pos h0]
    exact (lane0 _ _ _ _ p l h0).trans (column_apply v9 p)
  · rw [if_neg h0]
    by_cases h1 : l.val = 1
    · rw [if_pos h1]
      refine (lane1 _ _ _ _ p l h1).trans ((column_apply _ p).trans ?_)
      exact Sum12.reduceAdd_lanes_rows v32 reduces_S4x512x512_S4x512 reduces_S4x512_S4 p
    · rw [if_neg h1]
      exact (lane_rest _ _ _ _ p l (by omega)).trans Ideal.ofBits_zero_f32

end Cert.KernelIdeal.BlockValue

end
-- ==== Proof.KernelArray.lean ====
/-
  From blocks to the array. Grid point `t` handles the four samples `4t … 4t + 3`: every window's block at `t` is rows
  `4t … 4t + 3` of its array, whole on the other two axes, and the point writes back rows `4t … 4t + 3` of the
  `[64, 1, 128]` output. So what point `t` writes is block `t` of ONE function of the arrays as the region finds them
  (`stats`: sample `r`'s row holds its masked squared error in lane 0, its masked cross-entropy in lane 1, zero elsewhere);
  the sixteen blocks cover the output, which therefore ends holding `stats`.
-/
import proofs.«149988_j58007828300462_1_alg».proof.Proof.Gen.KernelIdeal.Frame
import proofs.«149988_j58007828300462_1_alg».proof.Proof.KernelBlock
import proofs.«149988_j58007828300462_1_alg».proof.Proof.Spec
import Idealize.ShloMosaic.Lib.Pipeline.Value
import Idealize.ShloMosaic.Lib.ValueIdx

set_option maxRecDepth 16384

noncomputable section

namespace Cert.KernelIdeal.ArrayValue

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ)

theorem hz : (![0, 0, 0] : Fin 3 → Nat) = fun _ => 0 := funext fun a => by fin_cases a <;> rfl

/-! ## The index maps, decided over the grid: every window's block index is `(i, 0, 0)` with the output's `i` -/

theorem idx0 : ∀ t : Fin cfg0.N, win0_0.index t (0 : Fin 3) = win0_6.index t (0 : Fin 3) ∧ win0_0.index t (1 : Fin 3) = 0 ∧ win0_0.index t (2 : Fin 3) = 0 :=
  (by decide +kernel : ∀ t : Fin grid0.N, _)
theorem idx1 : ∀ t : Fin cfg0.N, win0_1.index t (0 : Fin 3) = win0_6.index t (0 : Fin 3) ∧ win0_1.index t (1 : Fin 3) = 0 ∧ win0_1.index t (2 : Fin 3) = 0 :=
  (by decide +kernel : ∀ t : Fin grid0.N, _)
theorem idx2 : ∀ t : Fin cfg0.N, win0_2.index t (0 : Fin 3) = win0_6.index t (0 : Fin 3) ∧ win0_2.index t (1 : Fin 3) = 0 ∧ win0_2.index t (2 : Fin 3) = 0 :=
  (by decide +kernel : ∀ t : Fin grid0.N, _)
theorem idx3 : ∀ t : Fin cfg0.N, win0_3.index t (0 : Fin 3) = win0_6.index t (0 : Fin 3) ∧ win0_3.index t (1 : Fin 3) = 0 ∧ win0_3.index t (2 : Fin 3) = 0 :=
  (by decide +kernel : ∀ t : Fin grid0.N, _)
theorem idx4 : ∀ t : Fin cfg0.N, win0_4.index t (0 : Fin 3) = win0_6.index t (0 : Fin 3) ∧ win0_4.index t (1 : Fin 3) = 0 ∧ win0_4.index t (2 : Fin 3) = 0 :=
  (by decide +kernel : ∀ t : Fin grid0.N, _)
theorem idx5 : ∀ t : Fin cfg0.N, win0_5.index t (0 : Fin 3) = win0_6.index t (0 : Fin 3) ∧ win0_5.index t (1 : Fin 3) = 0 ∧ win0_5.index t (2 : Fin 3) = 0 :=
  (by decide +kernel : ∀ t : Fin grid0.N, _)
theorem idx6 : ∀ t : Fin cfg0.N, win0_6.index t (0 : Fin 3) ≤ 15 ∧ win0_6.index t (1 : Fin 3) = 0 ∧ win0_6.index t (2 : Fin 3) = 0 :=
  (by decide +kernel : ∀ t : Fin grid0.N, _)
/-- Every group of four samples is some point's. -/
theorem idx_onto : ∀ q : Fin 16, ∃ t : Fin cfg0.N, win0_6.index t (0 : Fin 3) = q.val :=
  (by decide +kernel : ∀ q : Fin 16, ∃ t : Fin grid0.N, win0_6.index t (0 : Fin 3) = q.val)

/-- The sample that row `p` of point `t`'s blocks holds. -/
def sample (t : Fin cfg0.N) (p : Fin 4) : Fin 64 :=
  ⟨win0_6.index t (0 : Fin 3) * 4 + p.val, by have := (idx6 t).1; have := p.isLt; omega⟩

/-! ## The input blocks at a point, by their literal types, read off the arrays -/

abbrev pcBlk (c : Dev nD) (t : Fin cfg0.N) : Vec Ideal S4x512x3 .f32 := iblk m c 0 t
abbrev ptsBlk (c : Dev nD) (t : Fin cfg0.N) : Vec Ideal S4x512x3 .f32 := iblk m c 1 t
abbrev colBlk (c : Dev nD) (t : Fin cfg0.N) : Vec Ideal S4x512x1 .f32 := iblk m c 2 t
abbrev rowBlk (c : Dev nD) (t : Fin cfg0.N) : Vec Ideal S4x1x512 .f32 := iblk m c 3 t
abbrev amBlk (c : Dev nD) (t : Fin cfg0.N) : Vec Ideal S4x512x512 .f32 := iblk m c 4 t
abbrev adjBlk (c : Dev nD) (t : Fin cfg0.N) : Vec Ideal S4x512x512 .f32 := iblk m c 5 t

theorem pcBlk_apply (c : Dev nD) (t : Fin cfg0.N) (p : Fin 4) (n : Fin 512) (d : Fin 3) :
    pcBlk m c t (ix3 p n d) = V m c main_arg0 (ix3 (sample t p) n d) := by
  obtain ⟨e0, e1, e2⟩ := idx0 t
  show V m c main_arg0 (((cfg0.win 0).blk t).view.emb (ix3 p n d)) = _
  refine congrArg (V m c main_arg0) (funext fun a => Fin.ext ?_)
  match a with
  | ⟨0, _⟩ => show win0_0.index t (0 : Fin 3) * 4 + 1 * p.val = win0_6.index t (0 : Fin 3) * 4 + p.val; omega
  | ⟨1, _⟩ => show win0_0.index t (1 : Fin 3) * 512 + 1 * n.val = n.val; omega
  | ⟨2, _⟩ => show win0_0.index t (2 : Fin 3) * 3 + 1 * d.val = d.val; omega

theorem ptsBlk_apply (c : Dev nD) (t : Fin cfg0.N) (p : Fin 4) (n : Fin 512) (d : Fin 3) :
    ptsBlk m c t (ix3 p n d) = V m c main_arg3 (ix3 (sample t p) n d) := by
  obtain ⟨e0, e1, e2⟩ := idx1 t
  show V m c main_arg3 (((cfg0.win 1).blk t).view.emb (ix3 p n d)) = _
  refine congrArg (V m c main_arg3) (funext fun a => Fin.ext ?_)
  match a with
  | ⟨0, _⟩ => show win0_1.index t (0 : Fin 3) * 4 + 1 * p.val = win0_6.index t (0 : Fin 3) * 4 + p.val; omega
  | ⟨1, _⟩ => show win0_1.index t (1 : Fin 3) * 512 + 1 * n.val = n.val; omega
  | ⟨2, _⟩ => show win0_1.index t (2 : Fin 3) * 3 + 1 * d.val = d.val; omega

theorem colBlk_apply (c : Dev nD) (t : Fin cfg0.N) (p : Fin 4) (n : Fin 512) :
    colBlk m c t (ix3 p n (0 : Fin 1)) = V m c main_v2 (ix3 (sample t p) n (0 : Fin 1)) := by
  obtain ⟨e0, e1, e2⟩ := idx2 t
  show V m c main_v2 (((cfg0.win 2).blk t).view.emb (ix3 p n (0 : Fin 1))) = _
  refine congrArg (V m c main_v2) (funext fun a => Fin.ext ?_)
  match a with
  | ⟨0, _⟩ => show win0_2.index t (0 : Fin 3) * 4 + 1 * p.val = win0_6.index t (0 : Fin 3) * 4 + p.val; omega
  | ⟨1, _⟩ => show win0_2.index t (1 : Fin 3) * 512 + 1 * n.val = n.val; omega
  | ⟨2, _⟩ => show win0_2.index t (2 : Fin 3) * 1 + 1 * 0 = 0; omega

theorem rowBlk_apply (c : Dev nD) (t : Fin cfg0.N) (p : Fin 4) (j : Fin 512) :
    rowBlk m c t (ix3 p (0 : Fin 1) j) = V m c main_v3 (ix3 (sample t p) (0 : Fin 1) j) := by
  obtain ⟨e0, e1, e2⟩ := idx3 t
  show V m c main_v3 (((cfg0.win 3).blk t).view.emb (ix3 p (0 : Fin 1) j)) = _
  refine congrArg (V m c main_v3) (funext fun a => Fin.ext ?_)
  match a with
  | ⟨0, _⟩ => show win0_3.index t (0 : Fin 3) * 4 + 1 * p.val = win0_6.index t (0 : Fin 3) * 4 + p.val; omega
  | ⟨1, _⟩ => show win0_3.index t (1 : Fin 3) * 1 + 1 * 0 = 0; omega
  | ⟨2, _⟩ => show win0_3.index t (2 : Fin 3) * 512 + 1 * j.val = j.val; omega

theorem amBlk_apply (c : Dev nD) (t : Fin cfg0.N) (p : Fin 4) (i j : Fin 512) :
    amBlk m c t (ix3 p i j) = V m c main_arg1 (ix3 (sample t p) i j) := by
  obtain ⟨e0, e1, e2⟩ := idx4 t
  show V m c main_arg1 (((cfg0.win 4).blk t).view.emb (ix3 p i j)) = _
  refine congrArg (V m c main_arg1) (funext fun a => Fin.ext ?_)
  match a with
  | ⟨0, _⟩ => show win0_4.index t (0 : Fin 3) * 4 + 1 * p.val = win0_6.index t (0 : Fin 3) * 4 + p.val; omega
  | ⟨1, _⟩ => show win0_4.index t (1 : Fin 3) * 512 + 1 * i.val = i.val; omega
  | ⟨2, _⟩ => show win0_4.index t (2 : Fin 3) * 512 + 1 * j.val = j.val; omega

theorem adjBlk_apply (c : Dev nD) (t : Fin cfg0.N) (p : Fin 4) (i j : Fin 512) :
    adjBlk m c t (ix3 p i j) = V m c main_arg4 (ix3 (sample t p) i j) := by
  obtain ⟨e0, e1, e2⟩ := idx5 t
  show V m c main_arg4 (((cfg0.win 5).blk t).view.emb (ix3 p i j)) = _
  refine congrArg (V m c main_arg4) (funext fun a => Fin.ext ?_)
  match a with
  | ⟨0, _⟩ => show win0_5.index t (0 : Fin 3) * 4 + 1 * p.val = win0_6.index t (0 : Fin 3) * 4 + p.val; omega
  | ⟨1, _⟩ => show win0_5.index t (1 : Fin 3) * 512 + 1 * i.val = i.val; omega
  | ⟨2, _⟩ => show win0_5.index t (2 : Fin 3) * 512 + 1 * j.val = j.val; omega

/-! ## The output array as one function of the arrays the region finds -/

/-- Lane `l` of sample `r`'s row: its masked squared error, its masked cross-entropy, or zero; the node mask read through
    the column `[64, 512, 1]` and the row `[64, 1, 512]` the region stages. -/
def statsAt (pc pts : S64x512x3.Idx → EReal) (col : S64x512x1.Idx → EReal) (row : S64x1x512.Idx → EReal)
    (am adj : S64x512x512.Idx → EReal) (r : Fin 64) (l : Fin 128) : EReal :=
  if l.val = 0 then
    ∑ n : Fin 512, ∑ d : Fin 3, ((pc (ix3 r n d) - pts (ix3 r n d)) * (pc (ix3 r n d) - pts (ix3 r n d))) * col (ix3 r n (0 : Fin 1))
  else if l.val = 1 then
    ∑ i : Fin 512, ∑ j : Fin 512, LossSpec.bce (am (ix3 r i j)) (adj (ix3 r i j)) * (col (ix3 r i (0 : Fin 1)) * row (ix3 r (0 : Fin 1) j))
  else 0

def stats (pc pts : S64x512x3.Idx → EReal) (col : S64x512x1.Idx → EReal) (row : S64x1x512.Idx → EReal)
    (am adj : S64x512x512.Idx → EReal) : S64x1x128.Idx → EReal :=
  fun i => statsAt pc pts col row am adj (i 0) (i 2)

/-- WHAT POINT `t` WRITES BACK is block `t` of `stats` of the arrays as the region finds them. -/
theorem flushed_eq (c : Dev nD) (t : Fin cfg0.N) :
    (dats m 0 c).flushed 6 t = ((cfg0.win 6).blk t).view.read (Elt Ideal)
      (stats (V m c main_arg0) (V m c main_arg3) (V m c main_v2) (V m c main_v3) (V m c main_arg1) (V m c main_arg4)) := by
  show (cfg0.win 6).cut (grid0.coords t) ((dats m 0 c).after 6 t) = _
  rw [after0_6]
  unfold out0_6
  rw [View.canon_unit_zero hz]
  simp only [View.ld_unit_zero (S := S4x512x3) hz, View.ld_unit_zero (S := S4x512x1) hz, View.ld_unit_zero (S := S4x512x512) hz,
    View.ld_unit_zero (S := S4x1x512) hz]
  funext y
  obtain ⟨p, z, l, rfl⟩ : ∃ (p : Fin 4) (z : Fin 1) (l : Fin 128), y = ix3 p z l := ⟨y 0, y 1, y 2, eq_ix3 y⟩
  obtain rfl : z = 0 := Fin.ext (by have := z.isLt; omega)
  show k0_pay1 (k0_pay3 (pcBlk m c t) (ptsBlk m c t) (colBlk m c t)) (k0_pay4 (colBlk m c t) (amBlk m c t) (adjBlk m c t) (rowBlk m c t)) (ix3 p (0 : Fin 1) l)
    = stats (V m c main_arg0) (V m c main_arg3) (V m c main_v2) (V m c main_v3) (V m c main_arg1) (V m c main_arg4)
        (((cfg0.win 6).blk t).view.emb (ix3 p (0 : Fin 1) l))
  have hemb : ((cfg0.win 6).blk t).view.emb (ix3 p (0 : Fin 1) l) = ix3 (sample t p) (0 : Fin 1) l := by
    obtain ⟨-, e1, e2⟩ := idx6 t
    funext a
    apply Fin.ext
    match a with
    | ⟨0, _⟩ => show win0_6.index t (0 : Fin 3) * 4 + 1 * p.val = win0_6.index t (0 : Fin 3) * 4 + p.val; omega
    | ⟨1, _⟩ => show win0_6.index t (1 : Fin 3) * 1 + 1 * 0 = 0; omega
    | ⟨2, _⟩ => show win0_6.index t (2 : Fin 3) * 128 + 1 * l.val = l.val; omega
  rw [hemb]
  refine (BlockValue.stored_apply _ _ p l).trans ?_
  show _ = statsAt (V m c main_arg0) (V m c main_arg3) (V m c main_v2) (V m c main_v3) (V m c main_arg1) (V m c main_arg4) (sample t p) l
  unfold statsAt
  by_cases h0 : l.val = 0
  · rw [if_pos h0, if_pos h0]
    refine (BlockValue.se_apply (pcBlk m c t) (ptsBlk m c t) (colBlk m c t) p).trans ?_
    refine Finset.sum_congr rfl fun n _ => Finset.sum_congr rfl fun d _ => ?_
    rw [pcBlk_apply, ptsBlk_apply, colBlk_apply]
  · rw [if_neg h0, if_neg h0]
    by_cases h1 : l.val = 1
    · rw [if_pos h1, if_pos h1]
      refine Finset.sum_congr rfl fun i _ => Finset.sum_congr rfl fun j _ => ?_
      refine (BlockValue.edge_apply (colBlk m c t) (amBlk m c t) (adjBlk m c t) (rowBlk m c t) p i j).trans ?_
      rw [amBlk_apply, adjBlk_apply, colBlk_apply, rowBlk_apply]
    · rw [if_neg h1, if_neg h1]

/-- An index of the output is in point `t`'s block iff each coordinate is in the block's range on its axis. -/
theorem mem_blk (t : Fin cfg0.N) (i : S64x1x128.Idx) :
    i ∈ ((cfg0.win 6).blk t).view.set ↔ ∀ a : Fin 3, win0_6.index t a * S4x1x128.size a ≤ (i a).val ∧ (i a).val < win0_6.index t a * S4x1x128.size a + S4x1x128.size a := by
  show i ∈ ((View.whole main_v4).slice (win0_6.rect t)).set ↔ _
  rw [View.set_slice_whole, Rect.mem_set_unit]
  exact Iff.rfl

/-- The sixteen blocks cover the output: sample `r` is in the block of the point with index `r / 4`. -/
theorem cover (i : S64x1x128.Idx) : ∃ t : Fin cfg0.N, (cfg0.win 6).flush t = true ∧ i ∈ ((cfg0.win 6).blk t).view.set := by
  have hi0 : (i 0).val < 64 := (i 0).isLt
  have hi1 : (i 1).val < 1 := (i 1).isLt
  have hi2 : (i 2).val < 128 := (i 2).isLt
  obtain ⟨t, ht⟩ := idx_onto ⟨(i 0).val / 4, by omega⟩
  have ht' : win0_6.index t (0 : Fin 3) = (i 0).val / 4 := ht
  obtain ⟨-, e1, e2⟩ := idx6 t
  refine ⟨t, flush0_6 t, ?_⟩
  rw [mem_blk]
  intro a
  match a with
  | ⟨0, _⟩ => show win0_6.index t (0 : Fin 3) * 4 ≤ (i 0).val ∧ (i 0).val < win0_6.index t (0 : Fin 3) * 4 + 4; omega
  | ⟨1, _⟩ => show win0_6.index t (1 : Fin 3) * 1 ≤ (i 1).val ∧ (i 1).val < win0_6.index t (1 : Fin 3) * 1 + 1; omega
  | ⟨2, _⟩ => show win0_6.index t (2 : Fin 3) * 128 ≤ (i 2).val ∧ (i 2).val < win0_6.index t (2 : Fin 3) * 128 + 128; omega

/-- THE OUTPUT ARRAY after the run: `stats` of the arrays as the region finds them. -/
theorem final (c : Dev nD) :
    (dats m 0 c).arrAt 6 cfg0.N
      = stats (V m c main_arg0) (V m c main_arg3) (V m c main_v2) (V m c main_v3) (V m c main_arg1) (V m c main_arg4) :=
  (dats m 0 c).arrAt_eq_of_cover 6 _ (fun t _ => flushed_eq m c t) cover

end Cert.KernelIdeal.ArrayValue

end
-- ==== Proof.Tail.lean ====
/-
  The scalar end both programs share. From the per-sample node count `n`, the per-sample masked squared error `se`
  and masked cross-entropy `edge`, and the predicted counts `cnt`:
    coord_b = se / max(3n, 1),  edge_b = edge / max(n·n, 1),  valid = [n > 0],  vc = Σ valid,
    coord_loss = vc > 0 ? Σ(coord_b · valid) / max(vc, 1) : 0,   edge_loss likewise,
    count_loss = Σ (cnt − n)² / 64,   total = 1·coord_loss + 1·edge_loss + 0.1·count_loss.
  Both programs apply exactly these host operations, in this order, to their own `se` and `edge`; so the end is stated
  once, and the two sides meet by showing their `se` and their `edge` equal.
-/
import proofs.«149988_j58007828300462_1_alg».proof.KernelIdeal
import Idealize.ShloMosaic.PureOps.Ideal

noncomputable section

namespace Cert.LossTail

open Idealize.ShloMosaic Cert.KernelIdeal

theorem spreads : S_.BroadcastsInDim S64 (![] : Fin 0 → Fin S64.rank) := by decide
theorem sums : S64.ReducesTo [0] S_ := by decide
theorem one_elt : 0 < S_.numel := by decide
theorem flat : S64x1.ShapeCasts S64 := by decide

/-- A scalar constant along the batch. -/
def spread (w : BitVec 32) : FVec Ideal S64 .f32 :=
  broadcastInDim S64 ![] spreads (constant (F := Ideal) S_ .f32 w)

/-- The host's sum over the batch, from zero. -/
def total (x : FVec Ideal S64 .f32) : FVec Ideal S_ .f32 :=
  Host.reduceAdd x (constant (F := Ideal) S_ .f32 0x00000000#32) sums one_elt

/-- 1 for a sample with at least one node, else 0. -/
def valid (n : FVec Ideal S64 .f32) : FVec Ideal S64 .f32 :=
  uitofp (F := Ideal) .f32 (cmpf .ogt n (spread 0x00000000#32))

/-- The mean of `q` over the valid samples, 0 when there is none. -/
def meanOverValid (n q : FVec Ideal S64 .f32) : FVec Ideal S_ .f32 :=
  select (cmpf .ogt (total (valid n)) (constant (F := Ideal) S_ .f32 0x00000000#32))
    (Host.divf (total (mulf q (valid n))) (maximumf (total (valid n)) (constant (F := Ideal) S_ .f32 0x3F800000#32)))
    (constant (F := Ideal) S_ .f32 0x00000000#32)

def coordLoss (n se : FVec Ideal S64 .f32) : FVec Ideal S_ .f32 :=
  meanOverValid n (Host.divf se (maximumf (mulf n (spread 0x40400000#32)) (spread 0x3F800000#32)))

def edgeLoss (n edge : FVec Ideal S64 .f32) : FVec Ideal S_ .f32 :=
  meanOverValid n (Host.divf edge (maximumf (mulf n n) (spread 0x3F800000#32)))

def countLoss (n : FVec Ideal S64 .f32) (cnt : FVec Ideal S64x1 .f32) : FVec Ideal S_ .f32 :=
  Host.divf (total (mulf (subf (shapeCast S64 cnt flat) n) (subf (shapeCast S64 cnt flat) n)))
    (constant (F := Ideal) S_ .f32 0x42800000#32)

def totalLoss (n se edge : FVec Ideal S64 .f32) (cnt : FVec Ideal S64x1 .f32) : FVec Ideal S_ .f32 :=
  addf (addf (mulf (constant (F := Ideal) S_ .f32 0x3F800000#32) (coordLoss n se))
      (mulf (constant (F := Ideal) S_ .f32 0x3F800000#32) (edgeLoss n edge)))
    (mulf (constant (F := Ideal) S_ .f32 0x3DCCCCCD#32) (countLoss n cnt))

end Cert.LossTail

end
-- ==== Proof.KernelRun.lean ====
/-
  The idealized kernel's run, read to the end. The host lines before the region make the node mask's float form, its
  column `[64, 512, 1]` and row `[64, 1, 512]` (two reshapes) and the per-sample node count; the region leaves the output
  array at `stats`; the host lines after it read lanes 0 and 1 of every sample's row (a slice and a reshape each) and
  apply the shared scalar end. Read through the reshapes, lane 0 is the specification's masked squared error and lane 1
  its masked cross-entropy; so each of the four results is the shared end of the node count, those two sums and the
  predicted counts.
-/
import proofs.«149988_j58007828300462_1_alg».proof.Proof.Gen.KernelIdeal.Frame
import proofs.«149988_j58007828300462_1_alg».proof.Proof.KernelArray
import proofs.«149988_j58007828300462_1_alg».proof.Proof.Tail
import proofs.«149988_j58007828300462_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.RunValue

open Idealize.ShloMosaic Idealize.ShloMosaic.TcCoe Idealize.ShloMosaic.ValueIdx Idealize.SL.Sem Cert.KernelIdeal Cert.KernelIdeal.Gen
open Idealize.ShloMosaic.StableHlo
open Idealize.ShloMosaic.Pipeline (Dat)

variable (m : (ℓ : Loc nD τ sig) → Buf (Elt Ideal) ℓ) (ρ : Dev nD → PrngReg)

/-- The node mask as floats. -/
abbrev maskOf (c : Dev nD) : FVec Ideal S64x512 .f32 := sitofp (F := Ideal) .f32 (m ((c : Thread nD τ).loc main_arg5))

/-- The per-sample node count: the host's sum of the mask over the nodes. -/
abbrev countOf (c : Dev nD) : FVec Ideal S64 .f32 :=
  Host.reduceAdd (maskOf m c) (constant (F := Ideal) S_ .f32 0x00000000#32) reducesTo_S64x512_S64_d1 h_S_

/-- The specification's two sums of the arguments, one entry per sample. -/
def seVec (c : Dev nD) : FVec Ideal S64 .f32 := fun j =>
  LossSpec.seOf (m ((c : Thread nD τ).loc main_arg0)) (m ((c : Thread nD τ).loc main_arg3)) (maskOf m c) (j 0)
def edgeVec (c : Dev nD) : FVec Ideal S64 .f32 := fun j =>
  LossSpec.edgeOf (m ((c : Thread nD τ).loc main_arg1)) (m ((c : Thread nD τ).loc main_arg4)) (maskOf m c) (j 0)

/-! ## The host lines before the region -/

theorem V_col (c : Dev nD) :
    (V m c main_v2 : S64x512x1.Idx → EReal) = shapeCast S64x512x1 (maskOf m c) shapeCasts_S64x512_S64x512x1 := by
  show StableHlo.after hostOps0 (fun b => m (c, b)) (Proc.devRef .tc main_v2) = _
  after_results
  rfl

theorem V_row (c : Dev nD) :
    (V m c main_v3 : S64x1x512.Idx → EReal) = shapeCast S64x1x512 (maskOf m c) shapeCasts_S64x512_S64x1x512 := by
  show StableHlo.after hostOps0 (fun b => m (c, b)) (Proc.devRef .tc main_v3) = _
  after_results
  rfl

theorem V_count (c : Dev nD) : (V m c main_v1 : S64.Idx → EReal) = countOf m c := by
  show StableHlo.after hostOps0 (fun b => m (c, b)) (Proc.devRef .tc main_v1) = _
  after_results

/-! ## What the lines after the region find -/

/-- The node count is no array of the pipeline: the lines after the region find it as the lines before left it. -/
theorem with_count (c : Dev nD) :
    Pipeline.withArrays (cfgs 0).spec c (V0 m c) (fun w => (dats m 0 c).arrAt w (cfgs 0).N) (Proc.devRef .tc main_v1) = countOf m c :=
  (Pipeline.withArrays_of_ne _ c (V0 m c) _ main_v1 (by exact (by decide : ∀ w, Pipeline.arrRef spec0 w ≠ main_v1))).trans (V_count m c)

/-- Nor are the predicted counts: they are as launched. -/
theorem with_cnt (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans (V_main_arg2 m c)

/-- The output array is the pipeline's window 6: `stats` of the arguments, the mask through its column and its row. -/
theorem with_out (c : Dev nD) :
    Pipeline.withArrays (cfgs 0).spec c (V0 m c) (fun w => (dats m 0 c).arrAt w (cfgs 0).N) (Proc.devRef .tc main_v4)
      = ArrayValue.stats (m ((c : Thread nD τ).loc main_arg0)) (m ((c : Thread nD τ).loc main_arg3))
          (shapeCast S64x512x1 (maskOf m c) shapeCasts_S64x512_S64x512x1) (shapeCast S64x1x512 (maskOf m c) shapeCasts_S64x512_S64x1x512)
          (m ((c : Thread nD τ).loc main_arg1)) (m ((c : Thread nD τ).loc main_arg4)) := by
  refine ((Pipeline.withArrays_arr spec0 launch0.win.arr_inj c _ _ 6).trans (ArrayValue.final m c)).trans ?_
  rw [V_main_arg0, V_main_arg3, V_main_arg1, V_main_arg4, V_col, V_row]

/-! ## Lanes 0 and 1 of the output, as the host reads them -/

/-- The mask's column at `(r, n, 0)` and its row at `(r, 0, n)` are the mask at `(r, n)`. -/
theorem col_apply (mk : FVec Ideal S64x512 .f32) (r : Fin 64) (n : Fin 512) :
    shapeCast S64x512x1 mk shapeCasts_S64x512_S64x512x1 (ix3 r n (0 : Fin 1)) = mk (ix2 r n) := by
  refine shapeCast_apply mk _ (ix3 r n (0 : Fin 1)) (ix2 r n) ?_
  rw [Shape.rowMajor_val_two, Shape.rowMajor_val_three]
  show r.val * 512 + n.val = (r.val * 512 + n.val) * 1 + 0
  omega

theorem row_apply (mk : FVec Ideal S64x512 .f32) (r : Fin 64) (n : Fin 512) :
    shapeCast S64x1x512 mk shapeCasts_S64x512_S64x1x512 (ix3 r (0 : Fin 1) n) = mk (ix2 r n) := by
  refine shapeCast_apply mk _ (ix3 r (0 : Fin 1) n) (ix2 r n) ?_
  rw [Shape.rowMajor_val_two, Shape.rowMajor_val_three]
  show r.val * 512 + n.val = (r.val * 1 + 0) * 512 + n.val
  omega

/-- Lane 0 of every sample's row, sliced out and flattened: the masked squared error. -/
theorem lane_se (c : Dev nD) :
    shapeCast S64 (extractStridedSlice S64x1x1 ![0, 0, 0]
        (ArrayValue.stats (m ((c : Thread nD τ).loc main_arg0)) (m ((c : Thread nD τ).loc main_arg3))
          (shapeCast S64x512x1 (maskOf m c) shapeCasts_S64x512_S64x512x1) (shapeCast S64x1x512 (maskOf m c) shapeCasts_S64x512_S64x1x512)
          (m ((c : Thread nD τ).loc main_arg1)) (m ((c : Thread nD τ).loc main_arg4)))
        slices_S64x1x128_S64x1x1_0_0_0) shapeCasts_S64x1x1_S64 = seVec m c := by
  funext j
  obtain ⟨r, rfl⟩ : ∃ r : Fin 64, j = ix1 r := ⟨j 0, eq_ix1 j⟩
  refine (shapeCast_apply _ _ (ix1 r) (ix3 r (0 : Fin 1) (0 : Fin 1)) ?_).trans ?_
  · rw [Shape.rowMajor_val_one, Shape.rowMajor_val_three]
    show (r.val * 1 + 0) * 1 + 0 = r.val
    omega
  refine (extractStridedSlice_apply _ _ _ (ix3 r (0 : Fin 1) (0 : Fin 1)) (ix3 r (0 : Fin 1) (0 : Fin 128)) ?_).trans ?_
  · intro a
    match a with
    | ⟨0, _⟩ => show r.val = 0 + r.val; omega
    | ⟨1, _⟩ => rfl
    | ⟨2, _⟩ => rfl
  show ArrayValue.statsAt _ _ _ _ _ _ r (0 : Fin 128) = LossSpec.seOf _ _ _ r
  unfold ArrayValue.statsAt LossSpec.seOf LossSpec.sqErr
  rw [if_pos (by rfl : ((0 : Fin 128) : Nat) = 0)]
  refine Finset.sum_congr rfl fun n _ => Finset.sum_congr rfl fun d _ => ?_
  rw [col_apply]

/-- Lane 1 likewise: the masked cross-entropy. -/
theorem lane_edge (c : Dev nD) :
    shapeCast S64 (extractStridedSlice S64x1x1 ![0, 0, 1]
        (ArrayValue.stats (m ((c : Thread nD τ).loc main_arg0)) (m ((c : Thread nD τ).loc main_arg3))
          (shapeCast S64x512x1 (maskOf m c) shapeCasts_S64x512_S64x512x1) (shapeCast S64x1x512 (maskOf m c) shapeCasts_S64x512_S64x1x512)
          (m ((c : Thread nD τ).loc main_arg1)) (m ((c : Thread nD τ).loc main_arg4)))
        slices_S64x1x128_S64x1x1_0_0_1) shapeCasts_S64x1x1_S64 = edgeVec m c := by
  funext j
  obtain ⟨r, rfl⟩ : ∃ r : Fin 64, j = ix1 r := ⟨j 0, eq_ix1 j⟩
  refine (shapeCast_apply _ _ (ix1 r) (ix3 r (0 : Fin 1) (0 : Fin 1)) ?_).trans ?_
  · rw [Shape.rowMajor_val_one, Shape.rowMajor_val_three]
    show (r.val * 1 + 0) * 1 + 0 = r.val
    omega
  refine (extractStridedSlice_apply _ _ _ (ix3 r (0 : Fin 1) (0 : Fin 1)) (ix3 r (0 : Fin 1) (1 : Fin 128)) ?_).trans ?_
  · intro a
    match a with
    | ⟨0, _⟩ => show r.val = 0 + r.val; omega
    | ⟨1, _⟩ => rfl
    | ⟨2, _⟩ => rfl
  show ArrayValue.statsAt _ _ _ _ _ _ r (1 : Fin 128) = LossSpec.edgeOf _ _ _ r
  unfold ArrayValue.statsAt LossSpec.edgeOf LossSpec.edgeTerm
  rw [if_neg (by decide : ¬ ((1 : Fin 128) : Nat) = 0), if_pos (by rfl : ((1 : Fin 128) : Nat) = 1)]
  refine Finset.sum_congr rfl fun i _ => Finset.sum_congr rfl fun j _ => ?_
  rw [col_apply, row_apply]

/-! ## The lines after the region: each result is the shared end of the node count, lanes 0 and 1, and the predicted counts -/

set_option maxHeartbeats 4000000 in
theorem tail_coord (c : Dev nD) :
    Pipeline.afterTail₀ cfgs (dats m) 0 (V0 m) [hostOps1, hostOps1_1, hostOps1_2, hostOps1_3, hostOps1_4, hostOps1_5] c main_v27 = LossTail.coordLoss (countOf m c) (seVec m c) := by
  unfold Pipeline.afterTail₀
  simp only [hostOps1, hostOps1_1, hostOps1_2, hostOps1_3, hostOps1_4, hostOps1_5, List.flatten_cons, List.flatten_nil, List.append_nil, List.cons_append, List.nil_append]
  after_results_simp
  show LossTail.coordLoss (Pipeline.withArrays (cfgs 0).spec c (V0 m c) (fun w => (dats m 0 c).arrAt w (cfgs 0).N) (Proc.devRef .tc main_v1)) (shapeCast S64 (extractStridedSlice S64x1x1 ![0, 0, 0] (Pipeline.withArrays (cfgs 0).spec c (V0 m c) (fun w => (dats m 0 c).arrAt w (cfgs 0).N) (Proc.devRef .tc main_v4)) slices_S64x1x128_S64x1x1_0_0_0) shapeCasts_S64x1x1_S64) = _
  rw [with_count, with_out, lane_se]

set_option maxHeartbeats 4000000 in
theorem tail_edge (c : Dev nD) :
    Pipeline.afterTail₀ cfgs (dats m) 0 (V0 m) [hostOps1, hostOps1_1, hostOps1_2, hostOps1_3, hostOps1_4, hostOps1_5] c main_v32 = LossTail.edgeLoss (countOf m c) (edgeVec m c) := by
  unfold Pipeline.afterTail₀
  simp only [hostOps1, hostOps1_1, hostOps1_2, hostOps1_3, hostOps1_4, hostOps1_5, List.flatten_cons, List.flatten_nil, List.append_nil, List.cons_append, List.nil_append]
  after_results_simp
  show LossTail.edgeLoss (Pipeline.withArrays (cfgs 0).spec c (V0 m c) (fun w => (dats m 0 c).arrAt w (cfgs 0).N) (Proc.devRef .tc main_v1)) (shapeCast S64 (extractStridedSlice S64x1x1 ![0, 0, 1] (Pipeline.withArrays (cfgs 0).spec c (V0 m c) (fun w => (dats m 0 c).arrAt w (cfgs 0).N) (Proc.devRef .tc main_v4)) slices_S64x1x128_S64x1x1_0_0_1) shapeCasts_S64x1x1_S64) = _
  rw [with_count, with_out, lane_edge]

set_option maxHeartbeats 4000000 in
theorem tail_count (c : Dev nD) :
    Pipeline.afterTail₀ cfgs (dats m) 0 (V0 m) [hostOps1, hostOps1_1, hostOps1_2, hostOps1_3, hostOps1_4, hostOps1_5] c main_v38 = LossTail.countLoss (countOf m c) (m ((c : Thread nD τ).loc main_arg2)) := by
  unfold Pipeline.afterTail₀
  simp only [hostOps1, hostOps1_1, hostOps1_2, hostOps1_3, hostOps1_4, hostOps1_5, List.flatten_cons, List.flatten_nil, List.append_nil, List.cons_append, List.nil_append]
  after_results_simp
  show LossTail.countLoss (Pipeline.withArrays (cfgs 0).spec c (V0 m c) (fun w => (dats m 0 c).arrAt w (cfgs 0).N) (Proc.devRef .tc main_v1)) (Pipeline.withArrays (cfgs 0).spec c (V0 m c) (fun w => (dats m 0 c).arrAt w (cfgs 0).N) (Proc.devRef .tc main_arg2)) = _
  rw [with_count, with_cnt]

set_option maxHeartbeats 8000000 in
theorem tail_total (c : Dev nD) :
    Pipeline.afterTail₀ cfgs (dats m) 0 (V0 m) [hostOps1, hostOps1_1, hostOps1_2, hostOps1_3, hostOps1_4, hostOps1_5] c main_v43
      = LossTail.totalLoss (countOf m c) (seVec m c) (edgeVec m c) (m ((c : Thread nD τ).loc main_arg2)) := by
  unfold Pipeline.afterTail₀
  simp only [hostOps1, hostOps1_1, hostOps1_2, hostOps1_3, hostOps1_4, hostOps1_5, List.flatten_cons, List.flatten_nil, List.append_nil, List.cons_append, List.nil_append]
  after_results_simp
  show LossTail.totalLoss (Pipeline.withArrays (cfgs 0).spec c (V0 m c) (fun w => (dats m 0 c).arrAt w (cfgs 0).N) (Proc.devRef .tc main_v1)) (shapeCast S64 (extractStridedSlice S64x1x1 ![0, 0, 0] (Pipeline.withArrays (cfgs 0).spec c (V0 m c) (fun w => (dats m 0 c).arrAt w (cfgs 0).N) (Proc.devRef .tc main_v4)) slices_S64x1x128_S64x1x1_0_0_0) shapeCasts_S64x1x1_S64) (shapeCast S64 (extractStridedSlice S64x1x1 ![0, 0, 1] (Pipeline.withArrays (cfgs 0).spec c (V0 m c) (fun w => (dats m 0 c).arrAt w (cfgs 0).N) (Proc.devRef .tc main_v4)) slices_S64x1x128_S64x1x1_0_0_1) shapeCasts_S64x1x1_S64) (Pipeline.withArrays (cfgs 0).spec c (V0 m c) (fun w => (dats m 0 c).arrAt w (cfgs 0).N) (Proc.devRef .tc main_arg2)) = _
  rw [with_count, with_cnt, with_out, lane_se, lane_edge]

/-! ## The run -/

/-- Every weakly fair execution of the idealized kernel's @main terminates with the four results at the shared end of the
    node count, the specification's two sums and the predicted counts, and the arguments unchanged. -/
theorem run : θ_run defs (onTc (τ := τ) (main (F := Ideal))) ⟨m, fun _ => 0, ρ⟩ fun r => ∀ c : Dev nD,
      r.2.mem ((c.tc : Thread nD τ).loc main_v43) = LossTail.totalLoss (countOf m c) (seVec m c) (edgeVec m c) (m ((c : Thread nD τ).loc main_arg2))
      ∧ r.2.mem ((c.tc : Thread nD τ).loc main_v27) = LossTail.coordLoss (countOf m c) (seVec m c)
      ∧ r.2.mem ((c.tc : Thread nD τ).loc main_v32) = LossTail.edgeLoss (countOf m c) (edgeVec m c)
      ∧ r.2.mem ((c.tc : Thread nD τ).loc main_v38) = LossTail.countLoss (countOf m c) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v43 (Pipeline.mem_restRefs_of main_v43 (by decide) (by decide))).trans (tail_total m c),
      ((h c).2 main_v27 (Pipeline.mem_restRefs_of main_v27 (by decide) (by decide))).trans (tail_coord m c),
      ((h c).2 main_v32 (Pipeline.mem_restRefs_of main_v32 (by decide) (by decide))).trans (tail_edge m c),
      ((h c).2 main_v38 (Pipeline.mem_restRefs_of main_v38 (by decide) (by decide))).trans (tail_count m c),
      ((h c).1 0).trans (((dats m 0 c).arrAt_in 0 rfl _).trans ((A_eq m c 0).trans (V_main_arg0 m c))),
      ((h c).1 4).trans (((dats m 0 c).arrAt_in 4 rfl _).trans ((A_eq m c 4).trans (V_main_arg1 m c))),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).1 5).trans (((dats m 0 c).arrAt_in 5 rfl _).trans ((A_eq m c 5).trans (V_main_arg4 m c))),
      ((h c).2 main_arg5 (Pipeline.mem_restRefs_of main_arg5 (by decide) (by decide))).trans (W_main_arg5 m (dats m) c)⟩)
    (run_main m ρ)

end Cert.KernelIdeal.RunValue

end
-- ==== Proof.RefSums.lean ====
/-
  The reference's two per-sample sums, read at a sample: its host reduce over the node and coordinate axes (and over the two
  node axes) of the masked, elementwise terms is the double sum the specification names. The node mask reaches the terms
  through broadcasts along the missing axes; a broadcast read at an index is the mask at the sample and node.
-/
import proofs.«149988_j58007828300462_1_alg».proof.Proof.Gen.ReferenceIdeal
import proofs.«149988_j58007828300462_1_alg».proof.Proof.Spec
import proofs.«149988_j58007828300462_1_alg».proof.Proof.LibSum12
import Idealize.ShloMosaic.Lib.Pipeline.Value
import Idealize.ShloMosaic.Lib.ValueIdx
import Idealize.ShloMosaic.PureOps.Ideal.Laws

noncomputable section

namespace Cert.ReferenceIdeal.Sums

open Idealize.ShloMosaic Idealize.ShloMosaic.ValueIdx Cert.ReferenceIdeal Cert.ReferenceIdeal.Gen

/-- The reference's masked squared error, one entry per sample: its host operations, composed. -/
def seRef (a0 a3 : FVec Ideal S64x512x3 .f32) (a5 : IVec S64x512 32) : FVec Ideal S64 .f32 :=
  Host.reduceAdd (mulf (mulf (subf a0 a3) (subf a0 a3)) (broadcastInDim S64x512x3 ![0, 1, 2] bcast_S64x512x1_S64x512x3_0_1_2 (broadcastInDim S64x512x1 ![0, 1] bcast_S64x512_S64x512x1_0_1 (sitofp (F := Ideal) .f32 a5)))) (constant (F := Ideal) S_ .f32 0x00000000#32) reducesTo_S64x512x3_S64_d1_2 h_S_

/-- The reference's masked cross-entropy, one entry per sample: its host operations, composed. -/
def edgeRef (a1 a4 : FVec Ideal S64x512x512 .f32) (a5 : IVec S64x512 32) : FVec Ideal S64 .f32 :=
  Host.reduceAdd (mulf (Host.negf (addf (mulf a4 (Host.log (minimumf (broadcastInDim S64x512x512 ![] bcast_S_S64x512x512 (id (constant (F := Ideal) S_ .f32 0x3F7FFFFE#32))) (maximumf (broadcastInDim S64x512x512 ![] bcast_S_S64x512x512 (id (constant (F := Ideal) S_ .f32 0x33D6BF95#32))) a1)))) (mulf (subf (broadcastInDim S64x512x512 ![] bcast_S_S64x512x512 (constant (F := Ideal) S_ .f32 0x3F800000#32)) a4) (Host.log1p (Host.negf (minimumf (broadcastInDim S64x512x512 ![] bcast_S_S64x512x512 (id (constant (F := Ideal) S_ .f32 0x3F7FFFFE#32))) (maximumf (broadcastInDim S64x512x512 ![] bcast_S_S64x512x512 (id (constant (F := Ideal) S_ .f32 0x33D6BF95#32))) a1))))))) (mulf (broadcastInDim S64x512x512 ![0, 1, 2] bcast_S64x512x1_S64x512x512_0_1_2 (broadcastInDim S64x512x1 ![0, 1] bcast_S64x512_S64x512x1_0_1 (sitofp (F := Ideal) .f32 a5))) (broadcastInDim S64x512x512 ![0, 1, 2] bcast_S64x1x512_S64x512x512_0_1_2 (broadcastInDim S64x1x512 ![0, 2] bcast_S64x512_S64x1x512_0_2 (sitofp (F := Ideal) .f32 a5))))) (constant (F := Ideal) S_ .f32 0x00000000#32) reducesTo_S64x512x512_S64_d1_2 h_S_

/-- The mask spread along the coordinate axis, at `(b, n, d)`: the mask at `(b, n)`. -/
theorem mask_coord (mk : FVec Ideal S64x512 .f32) (b : Fin 64) (n : Fin 512) (d : Fin 3) :
    broadcastInDim S64x512x3 ![0, 1, 2] bcast_S64x512x1_S64x512x3_0_1_2 (broadcastInDim S64x512x1 ![0, 1] bcast_S64x512_S64x512x1_0_1 mk) (ix3 b n d) = mk (ix2 b n) := by
  refine (broadcastInDim_apply _ _ _ (ix3 b n d) (ix3 b n (0 : Fin 1)) ?_).trans ?_
  · intro a
    match a with
    | ⟨0, _⟩ => rfl
    | ⟨1, _⟩ => rfl
    | ⟨2, _⟩ => rfl
  · refine broadcastInDim_apply _ _ _ (ix3 b n (0 : Fin 1)) (ix2 b n) ?_
    intro a
    match a with
    | ⟨0, _⟩ => rfl
    | ⟨1, _⟩ => rfl

/-- The mask spread along the second node axis, at `(b, i, j)`: the mask at `(b, i)`. -/
theorem mask_row (mk : FVec Ideal S64x512 .f32) (b : Fin 64) (i j : Fin 512) :
    broadcastInDim S64x512x512 ![0, 1, 2] bcast_S64x512x1_S64x512x512_0_1_2 (broadcastInDim S64x512x1 ![0, 1] bcast_S64x512_S64x512x1_0_1 mk) (ix3 b i j) = mk (ix2 b i) := by
  refine (broadcastInDim_apply _ _ _ (ix3 b i j) (ix3 b i (0 : Fin 1)) ?_).trans ?_
  · intro a
    match a with
    | ⟨0, _⟩ => rfl
    | ⟨1, _⟩ => rfl
    | ⟨2, _⟩ => rfl
  · refine broadcastInDim_apply _ _ _ (ix3 b i (0 : Fin 1)) (ix2 b i) ?_
    intro a
    match a with
    | ⟨0, _⟩ => rfl
    | ⟨1, _⟩ => rfl

/-- The mask spread along the first node axis, at `(b, i, j)`: the mask at `(b, j)`. -/
theorem mask_col (mk : FVec Ideal S64x512 .f32) (b : Fin 64) (i j : Fin 512) :
    broadcastInDim S64x512x512 ![0, 1, 2] bcast_S64x1x512_S64x512x512_0_1_2 (broadcastInDim S64x1x512 ![0, 2] bcast_S64x512_S64x1x512_0_2 mk) (ix3 b i j) = mk (ix2 b j) := by
  refine (broadcastInDim_apply _ _ _ (ix3 b i j) (ix3 b (0 : Fin 1) j) ?_).trans ?_
  · intro a
    match a with
    | ⟨0, _⟩ => rfl
    | ⟨1, _⟩ => rfl
    | ⟨2, _⟩ => rfl
  · refine broadcastInDim_apply _ _ _ (ix3 b (0 : Fin 1) j) (ix2 b j) ?_
    intro a
    match a with
    | ⟨0, _⟩ => rfl
    | ⟨1, _⟩ => rfl

/-- The reference's masked squared error at sample `b` is the specification's. -/
theorem seRef_apply (a0 a3 : FVec Ideal S64x512x3 .f32) (a5 : IVec S64x512 32) (b : Fin 64) :
    seRef a0 a3 a5 (ix1 b) = LossSpec.seOf a0 a3 (sitofp (F := Ideal) .f32 a5) b := by
  unfold seRef Host.reduceAdd
  refine (Sum12.hostReduceAdd_axes12 reducesTo_S64x512x3_S64_d1_2 _ _ b).trans ?_
  rw [show constant (F := Ideal) S_ .f32 0x00000000#32 (Shape.Idx.first h_S_) = (0 : EReal) from Ideal.ofBits_zero_f32, zero_add]
  unfold LossSpec.seOf LossSpec.sqErr
  refine Finset.sum_congr rfl fun n _ => Finset.sum_congr rfl fun d _ => ?_
  exact congrArg (fun z => ((a0 (ix3 b n d) - a3 (ix3 b n d)) * (a0 (ix3 b n d) - a3 (ix3 b n d))) * z) (mask_coord _ b n d)

/-- The reference's masked cross-entropy at sample `b` is the specification's. -/
theorem edgeRef_apply (a1 a4 : FVec Ideal S64x512x512 .f32) (a5 : IVec S64x512 32) (b : Fin 64) :
    edgeRef a1 a4 a5 (ix1 b) = LossSpec.edgeOf a1 a4 (sitofp (F := Ideal) .f32 a5) b := by
  unfold edgeRef Host.reduceAdd
  refine (Sum12.hostReduceAdd_axes12 reducesTo_S64x512x512_S64_d1_2 _ _ b).trans ?_
  rw [show constant (F := Ideal) S_ .f32 0x00000000#32 (Shape.Idx.first h_S_) = (0 : EReal) from Ideal.ofBits_zero_f32, zero_add]
  unfold LossSpec.edgeOf LossSpec.edgeTerm
  refine Finset.sum_congr rfl fun i _ => Finset.sum_congr rfl fun j _ => ?_
  show LossSpec.bce (a1 (ix3 b i j)) (a4 (ix3 b i j)) * (_ * _) = _
  rw [mask_row _ b i j, mask_col _ b i j]

end Cert.ReferenceIdeal.Sums

end
-- ==== Proof.RefEnd.lean ====
/-
  The reference's run, read to the end: each of its four results is the shared scalar end of the per-sample node count, the
  specification's masked squared error and masked cross-entropy, and the predicted counts. The run's composed terms ARE
  that end applied to the reference's own two host sums (by unfolding); those sums are the specification's, sample by
  sample.
-/
import proofs.«149988_j58007828300462_1_alg».proof.Proof.RefRun
import proofs.«149988_j58007828300462_1_alg».proof.Proof.RefSums
import proofs.«149988_j58007828300462_1_alg».proof.Proof.Tail
import proofs.«149988_j58007828300462_1_alg».proof.Proof.Spec
import Idealize.ShloMosaic.Lib.ValueIdx

set_option maxRecDepth 16384

noncomputable section

namespace Cert.ReferenceIdeal.EndValue

open Idealize.ShloMosaic Idealize.ShloMosaic.TcCoe Idealize.ShloMosaic.ValueIdx Idealize.SL.Sem Cert.ReferenceIdeal Cert.ReferenceIdeal.Gen

variable (m : (ℓ : Loc nD τ sig) → Buf (Elt Ideal) ℓ) (ρ : Dev nD → PrngReg)

/-- The node mask as floats, and the per-sample node count. -/
abbrev maskOf (c : Dev nD) : FVec Ideal S64x512 .f32 := sitofp (F := Ideal) .f32 (m ((c.tc : Thread nD τ).loc main_arg5))
abbrev countOf (c : Dev nD) : FVec Ideal S64 .f32 :=
  Host.reduceAdd (maskOf m c) (constant (F := Ideal) S_ .f32 0x00000000#32) reducesTo_S64x512_S64_d1 h_S_

/-- The specification's two sums of the arguments, one entry per sample. -/
def seVec (c : Dev nD) : FVec Ideal S64 .f32 := fun j =>
  LossSpec.seOf (m ((c.tc : Thread nD τ).loc main_arg0)) (m ((c.tc : Thread nD τ).loc main_arg3)) (maskOf m c) (j 0)
def edgeVec (c : Dev nD) : FVec Ideal S64 .f32 := fun j =>
  LossSpec.edgeOf (m ((c.tc : Thread nD τ).loc main_arg1)) (m ((c.tc : Thread nD τ).loc main_arg4)) (maskOf m c) (j 0)

theorem seRef_eq (c : Dev nD) :
    Sums.seRef (m ((c.tc : Thread nD τ).loc main_arg0)) (m ((c.tc : Thread nD τ).loc main_arg3)) (m ((c.tc : Thread nD τ).loc main_arg5)) = seVec m c := by
  funext j
  obtain ⟨r, rfl⟩ : ∃ r : Fin 64, j = ix1 r := ⟨j 0, eq_ix1 j⟩
  exact Sums.seRef_apply _ _ _ r

theorem edgeRef_eq (c : Dev nD) :
    Sums.edgeRef (m ((c.tc : Thread nD τ).loc main_arg1)) (m ((c.tc : Thread nD τ).loc main_arg4)) (m ((c.tc : Thread nD τ).loc main_arg5)) = edgeVec m c := by
  funext j
  obtain ⟨r, rfl⟩ : ∃ r : Fin 64, j = ix1 r := ⟨j 0, eq_ix1 j⟩
  exact Sums.edgeRef_apply _ _ _ r

set_option maxHeartbeats 4000000 in
/-- Every weakly fair execution of the idealized reference's @main terminates with the four results at the shared end of the
    node count, the specification's two sums and the predicted counts, and the arguments unchanged. -/
theorem run : θ_run defs (onTc (τ := τ) (main (F := Ideal))) ⟨m, fun _ => 0, ρ⟩ fun r => ∀ c : Dev nD,
      r.2.mem ((c.tc : Thread nD τ).loc main_v59) = LossTail.totalLoss (countOf m c) (seVec m c) (edgeVec m c) (m ((c.tc : Thread nD τ).loc main_arg2))
      ∧ r.2.mem ((c.tc : Thread nD τ).loc main_v43) = LossTail.coordLoss (countOf m c) (seVec m c)
      ∧ r.2.mem ((c.tc : Thread nD τ).loc main_v48) = LossTail.edgeLoss (countOf m c) (edgeVec m c)
      ∧ r.2.mem ((c.tc : Thread nD τ).loc main_v54) = LossTail.countLoss (countOf m c) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans ?_, (h c).2.1.trans ?_, (h c).2.2.1.trans ?_, (h c).2.2.2.1.trans ?_, (h c).2.2.2.2⟩)
    (Cert.ReferenceIdeal.ValueP.run (F := Ideal) m ρ)
  · show LossTail.totalLoss (countOf m c)
        (Sums.seRef (m ((c.tc : Thread nD τ).loc main_arg0)) (m ((c.tc : Thread nD τ).loc main_arg3)) (m ((c.tc : Thread nD τ).loc main_arg5)))
        (Sums.edgeRef (m ((c.tc : Thread nD τ).loc main_arg1)) (m ((c.tc : Thread nD τ).loc main_arg4)) (m ((c.tc : Thread nD τ).loc main_arg5)))
        (m ((c.tc : Thread nD τ).loc main_arg2)) = _
    rw [seRef_eq, edgeRef_eq]
  · show LossTail.coordLoss (countOf m c)
        (Sums.seRef (m ((c.tc : Thread nD τ).loc main_arg0)) (m ((c.tc : Thread nD τ).loc main_arg3)) (m ((c.tc : Thread nD τ).loc main_arg5))) = _
    rw [seRef_eq]
  · show LossTail.edgeLoss (countOf m c)
        (Sums.edgeRef (m ((c.tc : Thread nD τ).loc main_arg1)) (m ((c.tc : Thread nD τ).loc main_arg4)) (m ((c.tc : Thread nD τ).loc main_arg5))) = _
    rw [edgeRef_eq]
  · rfl

end Cert.ReferenceIdeal.EndValue

end
-- ==== Proof.lean ====
/-
  A graph loss over 64 samples of up to 512 nodes: per sample, the squared error of predicted against target coordinates
  summed over the present nodes, and the binary cross-entropy of predicted against target adjacency summed over pairs of
  present nodes; then, from those two sums, the per-sample node count and the predicted counts, four scalars (the coordinate
  loss, the edge loss, the count loss and their weighted total).

  The kernel forms the two per-sample sums on a grid of sixteen points of four samples each — a sum over the coordinates then
  over the nodes, a sum over the second node axis then over the first — and stores them in lanes 0 and 1 of a `[64, 1, 128]`
  array, from which host lines slice them; the reference forms each with ONE host sum over two axes. Both then apply the same
  host lines to them. Over the extended reals the kernel's nested sums and the reference's two-axis sum are the same double
  sum (addition is commutative and associative: no finiteness is needed), the kernel's subtractions from zero are the
  reference's negations, the node mask reaches both through reshapes or broadcasts that read the same entry, and the clipping
  bounds are the same float words on both sides. So the two programs compute the same four results of the same arguments.

  The frames of the two kernel programs are the generated ones; the reference's frame is its run with the results dropped;
  the idealization rewrote nothing, so its sanction is trivial.
-/
import proofs.«149988_j58007828300462_1_alg».proof.Defs
import proofs.«149988_j58007828300462_1_alg».proof.Proof.Gen.Kernel
import proofs.«149988_j58007828300462_1_alg».proof.Proof.Gen.Kernel.Frame
import proofs.«149988_j58007828300462_1_alg».proof.Proof.Gen.KernelIdeal
import proofs.«149988_j58007828300462_1_alg».proof.Proof.Gen.KernelIdeal.Frame
import proofs.«149988_j58007828300462_1_alg».proof.Proof.Gen.ReferenceIdeal
import proofs.«149988_j58007828300462_1_alg».proof.Proof.Gen.Pre_finite_inputs
import proofs.«149988_j58007828300462_1_alg».proof.Proof.KernelRun
import proofs.«149988_j58007828300462_1_alg».proof.Proof.RefEnd
import Idealize.ShloMosaic.Adequacy
import Idealize.ShloMosaic.Init

noncomputable section

namespace Cert.Proof

open Idealize.ShloMosaic Idealize.ShloMosaic.TcCoe Idealize.SL.Sem

namespace Claims

theorem frame_k : Cert.frame_Kernel := fun m ρ _ => Cert.Kernel.Gen.frame m ρ

theorem frame_ki : Cert.frame_KernelIdeal := fun m ρ _ => Cert.KernelIdeal.Gen.frame m ρ

/-- The reference's run with its results dropped. -/
theorem frame_ri : Cert.frame_ReferenceIdeal := fun m ρ _ =>
  (θ_run Cert.ReferenceIdeal.defs _ _).mono (fun _ h c => (h c).2.2.2.2) (Cert.ReferenceIdeal.EndValue.run m ρ)

theorem preserves : Cert.preserves_Kernel_KernelIdeal := trivial

/-- Both runs end with each result at the shared scalar end of the node count, the specification's two per-sample sums and
    the predicted counts — of their own arguments, which agree. -/
theorem algebraic : Cert.algebraic_KernelIdeal_ReferenceIdeal := by
  intro m ρ m' ρ' _ hagree
  refine ⟨_, _, _, _, Cert.KernelIdeal.RunValue.run m ρ, ?_⟩
  refine (θ_run Cert.ReferenceIdeal.defs _ _).mono
    (fun _ h c => ⟨(h c).1.trans ?_, (h c).2.1.trans ?_, (h c).2.2.1.trans ?_, (h c).2.2.2.1.trans ?_, (h c).2.2.2.2⟩)
    (Cert.ReferenceIdeal.EndValue.run m' ρ')
  · unfold Cert.ReferenceIdeal.EndValue.seVec Cert.ReferenceIdeal.EndValue.edgeVec Cert.ReferenceIdeal.EndValue.countOf
      Cert.ReferenceIdeal.EndValue.maskOf Cert.KernelIdeal.RunValue.seVec Cert.KernelIdeal.RunValue.edgeVec
      Cert.KernelIdeal.RunValue.countOf Cert.KernelIdeal.RunValue.maskOf
    rw [(hagree c).1, (hagree c).2.1, (hagree c).2.2.1, (hagree c).2.2.2.1, (hagree c).2.2.2.2.1, (hagree c).2.2.2.2.2]
  · unfold Cert.ReferenceIdeal.EndValue.seVec Cert.ReferenceIdeal.EndValue.countOf
      Cert.ReferenceIdeal.EndValue.maskOf Cert.KernelIdeal.RunValue.seVec
      Cert.KernelIdeal.RunValue.countOf Cert.KernelIdeal.RunValue.maskOf
    rw [(hagree c).1, (hagree c).2.2.2.1, (hagree c).2.2.2.2.2]
  · unfold Cert.ReferenceIdeal.EndValue.edgeVec Cert.ReferenceIdeal.EndValue.countOf
      Cert.ReferenceIdeal.EndValue.maskOf Cert.KernelIdeal.RunValue.edgeVec
      Cert.KernelIdeal.RunValue.countOf Cert.KernelIdeal.RunValue.maskOf
    rw [(hagree c).2.1, (hagree c).2.2.2.2.1, (hagree c).2.2.2.2.2]
  · unfold Cert.ReferenceIdeal.EndValue.countOf Cert.ReferenceIdeal.EndValue.maskOf
      Cert.KernelIdeal.RunValue.countOf Cert.KernelIdeal.RunValue.maskOf
    rw [(hagree c).2.2.1, (hagree c).2.2.2.2.2]

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
